-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S131072x256 : Shape := ⟨2, ![131072, 256]⟩
abbrev S256 : Shape := ⟨1, ![256]⟩
abbrev S131072 : Shape := ⟨1, ![131072]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg4 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S256x256 .f32) (main_arg1 : FVec F S131072x256 .f32) (main_arg2 : FVec F S131072x256 .f32) (main_arg3 : IVec S256 32) (main_arg4 : IVec S131072 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg4 main_v14
  let main_c_5 : IVec S_ 32 := constantI S_ 32 1000#32
  fn_part1 (F := F) main_arg4 main_v13 main_v15 main_c_5
-- ==== Kernel.lean ====
abbrev S256x256 : Shape := ⟨2, ![256, 256]⟩
abbrev S131072x256 : Shape := ⟨2, ![131072, 256]⟩
abbrev S256 : Shape := ⟨1, ![256]⟩
abbrev S131072 : Shape := ⟨1, ![131072]⟩
abbrev S_ : Shape := ⟨0, ![]⟩
abbrev S256x1 : Shape := ⟨2, ![256, 1]⟩
abbrev S1024 : Shape := ⟨1, ![1024]⟩
abbrev S1024x1 : Shape := ⟨2, ![1024, 1]⟩
abbrev S1x256 : Shape := ⟨2, ![1, 256]⟩
abbrev S1024x256 : Shape := ⟨2, ![1024, 256]⟩
abbrev S2x1x256 : Shape := ⟨3, ![2, 1, 256]⟩
abbrev S1x1x256 : Shape := ⟨3, ![1, 1, 256]⟩
abbrev S4096x256 : Shape := ⟨2, ![4096, 256]⟩

abbrev nBuf : Space → Nat
  | .hbm => 43
  | .vmem => 10
  | .smem => 0
  | _ => 0

abbrev bufTy : (tb : Table) → Fin (tcTables nBuf tb) → BufTy
  | .hbm, ⟨0, _⟩ => ⟨S256x256, .f32⟩
  | .hbm, ⟨1, _⟩ => ⟨S131072x256, .f32⟩
  | .hbm, ⟨2, _⟩ => ⟨S131072x256, .f32⟩
  | .hbm, ⟨3, _⟩ => ⟨S256, .i32⟩
  | .hbm, ⟨4, _⟩ => ⟨S131072, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S1024, .i32⟩
  | .hbm, ⟨15, _⟩ => ⟨S1024x1, .i32⟩
  | .hbm, ⟨16, _⟩ => ⟨S1x256, .i32⟩
  | .hbm, ⟨17, _⟩ => ⟨S1024x256, .i32⟩
  | .hbm, ⟨18, _⟩ => ⟨S1024x256, .i32⟩
  | .hbm, ⟨19, _⟩ => ⟨S1024x256, .i1⟩
  | .hbm, ⟨20, _⟩ => ⟨S1024x256, .f32⟩
  | .hbm, ⟨21, _⟩ => ⟨S2x1x256, .f32⟩
  | .hbm, ⟨22, _⟩ => ⟨S2x1x256, .f32⟩
  | .hbm, ⟨23, _⟩ => ⟨S1x1x256, .f32⟩
  | .hbm, ⟨24, _⟩ => ⟨S256, .f32⟩
  | .hbm, ⟨25, _⟩ => ⟨S1x1x256, .f32⟩
  | .hbm, ⟨26, _⟩ => ⟨S256, .f32⟩
  | .hbm, ⟨27, _⟩ => ⟨S256, .f32⟩
  | .hbm, ⟨28, _⟩ => ⟨S1x1x256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S256x256, .f32⟩
  | .local _ .vmem, ⟨1, _⟩ => ⟨S4096x256, .f32⟩
  | .local _ .vmem, ⟨2, _⟩ => ⟨S4096x256, .f32⟩
  | .local _ .vmem, ⟨3, _⟩ => ⟨S1024x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x256, .f32⟩
  | .local _ .vmem, ⟨9, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14_0 : Ref sig .tc := ⟨.hbm, 21, rfl⟩
abbrev main_call0_v14_1 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_cst : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_cst_1 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_cst_2 : Ref sig .tc := ⟨.hbm, 38, rfl⟩
abbrev main_call0_v28 : Ref sig .tc := ⟨.hbm, 39, rfl⟩
abbrev main_call0_cst_3 : Ref sig .tc := ⟨.hbm, 40, rfl⟩
abbrev main_call0_v29 : Ref sig .tc := ⟨.hbm, 41, rfl⟩
abbrev main_v0 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S1024_S1024x1_0 : S1024.BroadcastsInDim S1024x1 (![0] : Fin 1 → Fin S1024x1.rank)
  bcast_S256_S1x256_1 : S256.BroadcastsInDim S1x256 (![1] : Fin 1 → Fin S1x256.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  slices_S2x1x256_S1x1x256_0_0_0 : S2x1x256.Slices ![0, 0, 0] S1x1x256
  shapeCasts_S1x1x256_S256 : S1x1x256.ShapeCasts S256
  slices_S2x1x256_S1x1x256_1_0_0 : S2x1x256.Slices ![1, 0, 0] S1x1x256
  reducesTo_S256_S_d0 : S256.ReducesTo [0] S_
  h_S_ : 0 < S_.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  slices_S4096x256_o0_0_S1024x256 : S4096x256.Slices ![0, 0] S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S256 : S1024x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  gather_S131072_S256x1_S256_n_0_n_n_0_1_1_wf : GatherDims.WF S131072 S256x1 S256 [] [0] [] [0] [] 1 ![1]
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

def gather_S131072_S256x1_S256_n_0_n_n_0_1_1 : GatherDims S131072 S256x1 S256 where
  offsetDims := []
  collapsedSliceDims := [0]
  operandBatchingDims := []
  startIndicesBatchingDims := []
  startIndexMap := [0]
  indexVectorDim := 1
  sliceSizes := ![1]
  wf := gather_S131072_S256x1_S256_n_0_n_n_0_1_1_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v13) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v14_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond3 i == 1#1) | ⟨_ + 5, h⟩ => absurd h (Nat.not_lt.2 (Nat.le_add_left _ _))

class Facts : Prop extends Facts₀ where

variable [Facts]
-- ==== ReferenceIdeal.lean ====
abbrev S256x256 : Shape := ⟨2, ![256, 256]⟩
abbrev S131072x256 : Shape := ⟨2, ![131072, 256]⟩
abbrev S256 : Shape := ⟨1, ![256]⟩
abbrev S131072 : Shape := ⟨1, ![131072]⟩
abbrev S_ : Shape := ⟨0, ![]⟩
abbrev S256x1 : Shape := ⟨2, ![256, 1]⟩
abbrev S256x131072 : Shape := ⟨2, ![256, 131072]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S131072x256, .f32⟩
  | .hbm, ⟨2, _⟩ => ⟨S131072x256, .f32⟩
  | .hbm, ⟨3, _⟩ => ⟨S256, .i32⟩
  | .hbm, ⟨4, _⟩ => ⟨S131072, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S256x131072, .f32⟩
  | .hbm, ⟨15, _⟩ => ⟨S256x131072, .f32⟩
  | .hbm, ⟨16, _⟩ => ⟨S_, .f32⟩
  | .hbm, ⟨17, _⟩ => ⟨S256x131072, .f32⟩
  | .hbm, ⟨18, _⟩ => ⟨S256x131072, .f32⟩
  | .hbm, ⟨19, _⟩ => ⟨S256x131072, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x131072, .f32⟩
  | .hbm, ⟨27, _⟩ => ⟨S256x131072, .f32⟩
  | .hbm, ⟨28, _⟩ => ⟨S_, .f32⟩
  | .hbm, ⟨29, _⟩ => ⟨S256x131072, .f32⟩
  | .hbm, ⟨30, _⟩ => ⟨S256x131072, .f32⟩
  | .hbm, ⟨31, _⟩ => ⟨S256x131072, .f32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S256x1x1, .i32⟩
  | .hbm, ⟨41, _⟩ => ⟨S1, .i32⟩
  | .hbm, ⟨42, _⟩ => ⟨S_, .i32⟩
  | .hbm, ⟨43, _⟩ => ⟨S256x1x1, .i32⟩
  | .hbm, ⟨44, _⟩ => ⟨S256x1x1, .i1⟩
  | .hbm, ⟨45, _⟩ => ⟨S1x1x1, .i32⟩
  | .hbm, ⟨46, _⟩ => ⟨S256x1x1, .i32⟩
  | .hbm, ⟨47, _⟩ => ⟨S256x1x1, .i1⟩
  | .hbm, ⟨48, _⟩ => ⟨S256x1x1, .i1⟩
  | .hbm, ⟨49, _⟩ => ⟨S_, .i1⟩
  | .hbm, ⟨50, _⟩ => ⟨S256x1, .i1⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  transposes_S131072x256_S256x131072_1_0 : S131072x256.Transposes [1, 0] S256x131072
  bcast_S_S256x131072 : S_.BroadcastsInDim S256x131072 (![] : Fin 0 → Fin S256x131072.rank)
  reducesTo_S256x131072_S256_d1 : S256x131072.ReducesTo [1] S256
  h_S_ : 0 < S_.numel
  bcast_S_S256x1 : S_.BroadcastsInDim S256x1 (![] : Fin 0 → Fin S256x1.rank)
  bcast_S256x1_S256x131072_0_1 : S256x1.BroadcastsInDim S256x131072 (![0, 1] : Fin 2 → Fin S256x131072.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  gather_S131072_S256x1_S256_n_0_n_n_0_1_1_wf : GatherDims.WF S131072 S256x1 S256 [] [0] [] [0] [] 1 ![1]
  dot_S256x256_S256x131072_S256x131072_1_0_0_1_n_n_wf : DotDims.WF S256x256 S256x131072 S256x131072 [1] [0] [0] [1] [] []
  gather_S256x131072_S256x1x1_S256x1_n_1_0_0_1_2_11_wf : GatherDims.WF S256x131072 S256x1x1 S256x1 [] [1] [0] [1] [0] 2 ![1, 1]

variable [Facts₀]

def gather_S131072_S256x1_S256_n_0_n_n_0_1_1 : GatherDims S131072 S256x1 S256 where
  offsetDims := []
  collapsedSliceDims := [0]
  operandBatchingDims := []
  startIndicesBatchingDims := []
  startIndexMap := [0]
  indexVectorDim := 1
  sliceSizes := ![1]
  wf := gather_S131072_S256x1_S256_n_0_n_n_0_1_1_wf
def dot_S256x256_S256x131072_S256x131072_1_0_0_1_n_n : DotDims S256x256 S256x131072 S256x131072 where
  lhsContracting := [1]
  rhsContracting := [0]
  lhsNonContracting := [0]
  rhsNonContracting := [1]
  lhsBatch := []
  rhsBatch := []
  wf := dot_S256x256_S256x131072_S256x131072_1_0_0_1_n_n_wf
def gather_S256x131072_S256x1x1_S256x1_n_1_0_0_1_2_11 : GatherDims S256x131072 S256x1x1 S256x1 where
  offsetDims := []
  collapsedSliceDims := [1]
  operandBatchingDims := [0]
  startIndicesBatchingDims := [0]
  startIndexMap := [1]
  indexVectorDim := 2
  sliceSizes := ![1, 1]
  wf := gather_S256x131072_S256x1x1_S256x1_n_1_0_0_1_2_11_wf

class Facts : Prop extends Facts₀ where

variable [Facts]
-- ==== Proof.LibGatherVec.lean ====
/-
  A GATHER OF SINGLE ELEMENTS OF A VECTOR, READ AT AN INDEX.

  A gather of an operand `[N]` at start indices `[E, 1]` with no offset axis, collapsed operand axis 0, start index map
  `[0]`, the index vector on axis 1 of the start indices and slices of one element produces a result `[E]`. The operand
  index for the result index `e` is the word `idx (e, 0)` read signed, as a natural number, clamped to `N − 1`: there is
  no batching axis and the one operand axis is collapsed, so nothing is added to the clamped start.
-/
import Idealize.ShloMosaic.PureOps.Ideal
import Idealize.ShloMosaic.Lib.ValueIdx

noncomputable section

open Idealize.ShloMosaic Idealize.ShloMosaic.ValueIdx

namespace Cert.LibGatherVec

/-- The dimension numbers of an element gather from a vector: operand `[N]`, one start-index word per result element
    in `[E, 1]`, result `[E]`. -/
abbrev vecDims {N E : Nat}
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the start-index word of `e`, read signed and clamped into
    `[0, N − 1]`. -/
theorem gather_vec_apply {α : Type} {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecDims wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims wf).start (ix1 e) idx 0 + (vecDims wf).batchCoord (ix1 e) 0 + (vecDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherVec

end
-- ==== Proof.Spec.lean ====
/-
  The mathematics both programs compute, stated once over the extended reals.

  X is the [256, 256] array of queries (row b), C the [131072, 256] bank (row n).  The scaled similarity of bank
  row n and query b is (∑ d, C n d · X b d) · κ with κ = 268435456/13421773, the exact reciprocal of the binary
  value of 0.05.  With e n b its exponential and S b = ∑ n, e n b, the loss for target columns tc is
      −( ∑ b, log( e (tc b) b / (S b + ε) + ε ) ) / 256.
  One program sums e over the bank in 32 tiles of 4096 rows, two chunks of 16 tiles, each chunk accumulated tile by
  tile; the regrouping of that sum is proved here, over the natural numbers, as is the selection of one term of a
  sum by a 0/1 indicator and the law that turns a division by the binary value of 0.05 into the product with κ.
-/
import Idealize.ShloMosaic.PureOps.Ideal
import Idealize.ShloMosaic.PureOps.Ideal.Laws
import Idealize.ShloMosaic.Lib.ValueIdx
import proofs.«409396_j62474594288059_2_alg».proof.Proof.LibGatherVec

noncomputable section

namespace Cert.Spec

open Idealize.ShloMosaic Idealize.ShloMosaic.ValueIdx

abbrev SX : Shape := ⟨2, ![256, 256]⟩
abbrev SC : Shape := ⟨2, ![131072, 256]⟩

/-- The temperature factor: the exact reciprocal of the binary value of 0.05. -/
def kap : EReal := ((268435456 / 13421773 : ℝ) : EReal)

/-- The small constant added under the quotient and under the logarithm. -/
def eps : EReal := Ideal.ofBits .f32 0x358637BD#32

variable (X : SX.Idx → EReal) (C : SC.Idx → EReal)

/-- The scaled similarity of bank row n and query b. -/
def logit (n : Fin 131072) (b : Fin 256) : EReal := (∑ d : Fin 256, C (ix2 n d) * X (ix2 b d)) * kap

/-- Its exponential. -/
def ex (n : Fin 131072) (b : Fin 256) : EReal := Ideal.exp (logit X C n b)

/-- The sum of the exponentials over the whole bank. -/
def rowsum (b : Fin 256) : EReal := ∑ n : Fin 131072, ex X C n b

/-- The logarithm of the regularised share of column n. -/
def logp (n : Fin 131072) (b : Fin 256) : EReal := Ideal.log (Ideal.div (ex X C n b) (rowsum X C b + eps) + eps)

/-- The loss for the target columns tc: minus the mean of the target columns' logarithms. -/
def loss (tc : Fin 256 → Fin 131072) : EReal :=
  -(Ideal.div (∑ b : Fin 256, logp X C (tc b) b) (Ideal.ofBits .f32 0x43800000#32))

/-! ## The bank in tiles -/

/-- The exponential at a bank row given as a natural number (zero past the bank). -/
def exN (n : ℕ) (b : Fin 256) : EReal := if h : n < 131072 then ex X C ⟨n, h⟩ b else 0

/-- The sum over tile p: rows 4096 p … 4096 p + 4095. -/
def tileSum (p : ℕ) (b : Fin 256) : EReal := ∑ r ∈ Finset.range 4096, exN X C (p * 4096 + r) b

/-- What has been accumulated after tile p: the tiles of p's chunk of 16, from the chunk's first up to p. -/
def partialSum (p : ℕ) (b : Fin 256) : EReal := ∑ j ∈ Finset.range (p % 16 + 1), tileSum X C (p - p % 16 + j) b

theorem partialSum_first (p : ℕ) (h : p % 16 = 0) (b : Fin 256) : partialSum X C p b = tileSum X C p b := by
  unfold partialSum
  rw [h, Finset.sum_range_one]
  simp

theorem partialSum_succ (p : ℕ) (h : ¬(p + 1) % 16 = 0) (b : Fin 256) :
    partialSum X C (p + 1) b = partialSum X C p b + tileSum X C (p + 1) b := by
  unfold partialSum
  have h1 : (p + 1) % 16 = p % 16 + 1 := by omega
  have h2 : p + 1 - (p % 16 + 1) = p - p % 16 := by omega
  rw [h1, h2, Finset.sum_range_succ]
  congr 2
  omega

/-- A sum over k tiles of 4096 is the sum over the rows they hold. -/
theorem sum_tiles (f : ℕ → EReal) (base : ℕ) : ∀ k : ℕ,
    ∑ j ∈ Finset.range k, ∑ r ∈ Finset.range 4096, f ((base + j) * 4096 + r)
      = ∑ n ∈ Finset.range (k * 4096), f (base * 4096 + n)
  | 0 => by simp
  | k + 1 => by
    rw [Finset.sum_range_succ, sum_tiles f base k, show (k + 1) * 4096 = k * 4096 + 4096 by ring, Finset.sum_range_add]
    congr 1
    refine Finset.sum_congr rfl fun r _ => ?_
    congr 1
    ring

/-- The two chunks' accumulated sums add up to the sum over the whole bank. -/
theorem partialSum_total (b : Fin 256) : partialSum X C 15 b + partialSum X C 31 b = rowsum X C b := by
  unfold partialSum tileSum
  have e0 : ∀ j, (15 - 15 % 16 + j) = 0 + j := fun j => by omega
  have e1 : ∀ j, (31 - 31 % 16 + j) = 16 + j := fun j => by omega
  simp only [e0, e1, show 15 % 16 + 1 = 16 from rfl, show 31 % 16 + 1 = 16 from rfl]
  rw [sum_tiles (fun n => exN X C n b) 0 16, sum_tiles (fun n => exN X C n b) 16 16]
  simp only [Nat.zero_mul, Nat.zero_add]
  rw [show (16 * 4096 : ℕ) = 65536 from rfl, ← Finset.sum_range_add (fun n => exN X C n b) 65536 65536]
  unfold rowsum
  rw [show (65536 + 65536 : ℕ) = 131072 from rfl, ← Fin.sum_univ_eq_sum_range (fun n => exN X C n b) 131072]
  refine Finset.sum_congr rfl fun n _ => ?_
  unfold exN
  rw [dif_pos n.isLt]

/-- Tile p's sum over its rows as a sum over `Fin 4096`. -/
theorem tileSum_eq (p : ℕ) (hp : p < 32) (b : Fin 256) :
    tileSum X C p b = ∑ r : Fin 4096, ex X C ⟨p * 4096 + r.val, by have := r.isLt; omega⟩ b := by
  unfold tileSum
  rw [← Fin.sum_univ_eq_sum_range (fun r => exN X C (p * 4096 + r) b) 4096]
  refine Finset.sum_congr rfl fun r _ => ?_
  unfold exN
  rw [dif_pos (by have := r.isLt; omega)]

/-! ## Selecting one term by an indicator -/

/-- A sum of terms each multiplied by the indicator of one index is the term at that index. -/
theorem sum_indicator {ι : Type*} [Fintype ι] [DecidableEq ι] (e oh : ι → EReal) (t : ι)
    (h : ∀ i, oh i = if i = t then 1 else 0) : ∑ i, e i * oh i = e t := by
  rw [Finset.sum_eq_single t]
  · rw [h t, if_pos rfl, mul_one]
  · intro i _ hi
    rw [h i, if_neg hi, mul_zero]
  · intro ht
    exact absurd (Finset.mem_univ t) ht

/-! ## The temperature -/

/-- The binary value of 0.05 is the rational 13421773/268435456. -/
theorem ofBits_temp : Ideal.ofBits .f32 0x3D4CCCCD#32 = ((13421773 / 268435456 : ℝ) : EReal) := by
  simp [Ideal.ofBits, Ideal.ieee, -EReal.coe_mul]; norm_num

/-- Dividing by the binary value of 0.05 is multiplying by κ. -/
theorem div_temp (x : EReal) : Ideal.div x (Ideal.ofBits .f32 0x3D4CCCCD#32) = x * kap := by
  rw [ofBits_temp, Ideal.div_coe (by norm_num)]
  unfold kap
  congr 2
  norm_num

/-! ## The target columns -/

abbrev S256 : Shape := ⟨1, ![256]⟩
abbrev S131072 : Shape := ⟨1, ![131072]⟩
abbrev S256x1 : Shape := ⟨2, ![256, 1]⟩
abbrev S_ : Shape := ⟨0, ![]⟩

theorem gatherWF : GatherDims.WF S131072 S256x1 S256 [] [0] [] [0] [] 1 ![1] := by decide
theorem bcast0 : S_.BroadcastsInDim S256 (![] : Fin 0 → Fin S256.rank) := by decide
theorem bcast1 : S256.BroadcastsInDim S256x1 (![0] : Fin 1 → Fin S256x1.rank) := by decide

/-- The index words wrapped once: a negative word counts from the end of the bank of 131072 labels. -/
def wrapIdx (idx : IVec S256 32) : IVec S256x1 32 :=
  broadcastInDim S256x1 ![0] bcast1
    (select (cmpi .slt idx (broadcastInDim S256 ![] bcast0 (constantI S_ 32 0#32)))
      (addi idx (broadcastInDim S256 ![] bcast0 (constantI S_ 32 131072#32))) idx)

/-- The target words: the labels at the wrapped index words, each clamped into the bank. -/
def targets (idx : IVec S256 32) (lab : IVec S131072 32) : IVec S256 32 :=
  Host.gather (Cert.LibGatherVec.vecDims gatherWF) lab (wrapIdx idx)

/-- Every label is a cluster number below 1000. -/
def LabelsOk (lab : IVec S131072 32) : Prop :=
  ∀ i : Fin 131072, 0 ≤ (lab (ix1 i)).toInt ∧ (lab (ix1 i)).toInt < 1000

/-- The target column of query b as a column of the bank. -/
def tcol (tg : IVec S256 32) (b : Fin 256) : Fin 131072 := ⟨min (tg (ix1 b)).toInt.toNat 131071, by omega⟩

/-- A target word is one of the labels, so it is a cluster number below 1000 when they all are. -/
theorem targets_ok {idx : IVec S256 32} {lab : IVec S131072 32} (h : LabelsOk lab) (b : Fin 256) :
    0 ≤ (targets idx lab (ix1 b)).toInt ∧ (targets idx lab (ix1 b)).toInt < 1000 := by
  unfold targets
  rw [Cert.LibGatherVec.gather_vec_apply (by decide) gatherWF]
  exact h _

/-- So its column is the word's own value. -/
theorem tcol_val {idx : IVec S256 32} {lab : IVec S131072 32} (h : LabelsOk lab) (b : Fin 256) :
    ((tcol (targets idx lab) b).val : Int) = (targets idx lab (ix1 b)).toInt := by
  have := targets_ok (idx := idx) h b
  unfold tcol
  simp only
  omega

end Cert.Spec

end
-- ==== Proof.PreLabels.lean ====
/-
  The precondition says, among other things, that every label is a cluster number in [0, 1000).
-/
import proofs.«409396_j62474594288059_2_alg».proof.Pre_finite_inputs
import proofs.«409396_j62474594288059_2_alg».proof.Proof.Gen.Pre_finite_inputs
import proofs.«409396_j62474594288059_2_alg».proof.Proof.Spec
import Idealize.ShloMosaic.Lib.ReduceAll
import Idealize.ShloMosaic.Lib.StableHlo.Predicate

noncomputable section

namespace Cert.PreLabels

open Idealize.ShloMosaic Idealize.ShloMosaic.ValueIdx

/-- When the precondition's value is "true", its last conjunct — every label at least 0 and below 1000, read as
    signed words — holds of each label. -/
theorem labels_ok {F : FTy → Type} [FloatOps F]
    (a0 : FVec F Cert.Pre_finite_inputs.S256x256 .f32) (a1 a2 : FVec F Cert.Pre_finite_inputs.S131072x256 .f32)
    (a3 : IVec Cert.Pre_finite_inputs.S256 32) (a4 : IVec Cert.Pre_finite_inputs.S131072 32)
    (h : Cert.Pre_finite_inputs.fn (F := F) a0 a1 a2 a3 a4 = fun _ => 1#1) : Cert.Spec.LabelsOk a4 := by
  -- the predicate's one word is 1
  have h0 := congrFun h ValueIdx.ix0
  dsimp only [Cert.Pre_finite_inputs.fn, Cert.Pre_finite_inputs.fn_part1] at h0
  -- it is a conjunction; its last conjunct is the conjunction over all labels of the two comparisons
  have hall := (IntOp.andi_eq_one.1 h0).2
  haveI : Subsingleton Cert.Pre_finite_inputs.S_.Idx := ⟨fun a b => funext fun d => d.elim0⟩
  intro i
  -- so the two comparisons hold of label i
  have hi := Host.reduce_andi_all _ _ _ _ _ hall (ix1 i)
  obtain ⟨hge, hlt⟩ := IntOp.andi_eq_one.1 hi
  have hge' := IntOp.cmpi_sge.1 hge
  have hlt' := IntOp.cmpi_slt.1 hlt
  -- against the constants 0 and 1000
  have e0 : (broadcastInDim Cert.Pre_finite_inputs.S131072 ![] Cert.Pre_finite_inputs.Facts.bcast_S_S131072
      (constantI Cert.Pre_finite_inputs.S_ 32 0#32) (ix1 i)).toInt = 0 := rfl
  have e1 : (broadcastInDim Cert.Pre_finite_inputs.S131072 ![] Cert.Pre_finite_inputs.Facts.bcast_S_S131072
      (constantI Cert.Pre_finite_inputs.S_ 32 1000#32) (ix1 i)).toInt = 1000 := rfl
  rw [e0] at hge'
  rw [e1] at hlt'
  exact ⟨hge', hlt'⟩

end Cert.PreLabels

end
-- ==== Proof.RefValue.lean ====
/-
  The reference's result is the loss of the specification.

  The reference computes, for queries X (row b) and the bank C (row n): the scaled similarities
  (∑ d, X b d · C n d) / t with t the binary value of 0.05, their exponentials e, each row's sum S b, the shares
  e / (S b + ε), the logarithms log(share + ε), then reads in row b the column given by the target word of b and
  returns minus the mean of the 256 values read. The target words are labels, so they lie in [0, 1000): the reading's
  wrap of a negative word does nothing, its range test passes, and the clamped column is the word itself.
-/
import proofs.«409396_j62474594288059_2_alg».proof.Proof.Gen.ReferenceIdeal.Read
import proofs.«409396_j62474594288059_2_alg».proof.Proof.Spec
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## Two general facts -/

/-- A reduction by `and` from 1 over an array of 1s is 1. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a]
    exact ih

/-- The gather that reads, in row b of a [256, 131072] array, the column given by the start-index word of b: the row
    axis is a batching axis (start 0, the result's own row), the column axis is collapsed and carries the word read
    signed and clamped into [0, 131071]. -/
theorem gather_col_apply {α : Type} (x : S256x131072.Idx → α) (idx : IVec S256x1x1 32) (b : Fin 256) :
    Host.gather gather_S256x131072_S256x1x1_S256x1_n_1_0_0_1_2_11 x idx (ix2 b (0 : Fin 1))
      = x (ix2 b (⟨min (idx (ix3 b (0 : Fin 1) (0 : Fin 1))).toInt.toNat 131071, by omega⟩ : Fin 131072)) := by
  unfold Host.gather
  congr 1
  funext a
  refine Fin.ext ?_
  have hb0 : (0 : Fin 2) ∈ gather_S256x131072_S256x1x1_S256x1_n_1_0_0_1_2_11.operandBatchingDims :=
    List.mem_singleton.mpr rfl
  have hb1 : (1 : Fin 2) ∉ gather_S256x131072_S256x1x1_S256x1_n_1_0_0_1_2_11.operandBatchingDims := by
    show (1 : Fin 2) ∉ [(0 : Fin 2)]
    decide
  have hc1 : (1 : Fin 2) ∈ gather_S256x131072_S256x1x1_S256x1_n_1_0_0_1_2_11.collapsedSliceDims :=
    List.mem_singleton.mpr rfl
  have hm1 : (1 : Fin 2) ∈ gather_S256x131072_S256x1x1_S256x1_n_1_0_0_1_2_11.startIndexMap :=
    List.mem_singleton.mpr rfl
  match a with
  | ⟨0, _⟩ =>
    show gather_S256x131072_S256x1x1_S256x1_n_1_0_0_1_2_11.start (ix2 b (0 : Fin 1)) idx 0
        + gather_S256x131072_S256x1x1_S256x1_n_1_0_0_1_2_11.batchCoord (ix2 b (0 : Fin 1)) 0
        + gather_S256x131072_S256x1x1_S256x1_n_1_0_0_1_2_11.offCoord (ix2 b (0 : Fin 1)) 0 = b.val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    show gather_S256x131072_S256x1x1_S256x1_n_1_0_0_1_2_11.start (ix2 b (0 : Fin 1)) idx 1
        + gather_S256x131072_S256x1x1_S256x1_n_1_0_0_1_2_11.batchCoord (ix2 b (0 : Fin 1)) 1
        + gather_S256x131072_S256x1x1_S256x1_n_1_0_0_1_2_11.offCoord (ix2 b (0 : Fin 1)) 1
      = min (idx (ix3 b (0 : Fin 1) (0 : Fin 1))).toInt.toNat 131071
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos hm1]
    have hsi : gather_S256x131072_S256x1x1_S256x1_n_1_0_0_1_2_11.siIdx (ix2 b (0 : Fin 1))
        ⟨List.idxOf (1 : Fin 2) gather_S256x131072_S256x1x1_S256x1_n_1_0_0_1_2_11.startIndexMap,
          List.idxOf_lt_length_iff.2 hm1⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-! ## The float chain, read at (b, n) -/

section Floats
variable (x0 : (⟨S256x256, .f32⟩ : BufTy).Contents (Elt Ideal)) (x1 : (⟨S131072x256, .f32⟩ : BufTy).Contents (Elt Ideal))

theorem lidx_eq (b : Fin 256) (n : Fin 131072) (d : Fin 256) : lidx_main_v8 (ix2 b n) d = ix2 b d := by
  funext a; match a with | ⟨0, _⟩ => rfl | ⟨1, _⟩ => rfl

theorem ridx_eq (b : Fin 256) (n : Fin 131072) (d : Fin 256) : ridx_main_v8 (ix2 b n) d = ix2 d n := by
  funext a; match a with | ⟨0, _⟩ => rfl | ⟨1, _⟩ => rfl

theorem idx7_eq (d : Fin 256) (n : Fin 131072) : idx_main_v7 (ix2 d n) = ix2 n d := by
  funext a; match a with | ⟨0, _⟩ => rfl | ⟨1, _⟩ => rfl

theorem idx12_eq (b : Fin 256) (n : Fin 131072) : idx_main_v12 (ix1 b) n = ix2 b n := by
  funext a; match a with | ⟨0, _⟩ => rfl | ⟨1, _⟩ => rfl

theorem idx16_eq (b : Fin 256) (n : Fin 131072) : idx_main_v13 (idx_main_v16 (ix2 b n)) = ix1 b := by
  funext a; match a with | ⟨0, _⟩ => rfl

/-- The scaled similarity of query b and bank row n. -/
theorem v10_at (b : Fin 256) (n : Fin 131072) :
    val_main_v10 (F := Ideal) x0 x1 (ix2 b n) = Cert.Spec.logit x0 x1 n b := by
  rw [val_main_v10_apply, val_main_v8_apply, val_main_v9_apply, val_main_cst_apply, Ideal.hostDivf_def, Ideal.ofBits_def,
    Cert.Spec.div_temp]
  unfold Cert.Spec.logit
  congr 1
  refine Finset.sum_congr rfl fun d _ => ?_
  rw [val_main_v7_apply, lidx_eq, ridx_eq, idx7_eq, mul_comm]

/-- Its exponential. -/
theorem v11_at (b : Fin 256) (n : Fin 131072) :
    val_main_v11 (F := Ideal) x0 x1 (ix2 b n) = Cert.Spec.ex x0 x1 n b := by
  rw [val_main_v11_apply, v10_at, Ideal.hostUnary_exp_def]
  rfl

/-- The row sum. -/
theorem v12_at (b : Fin 256) : val_main_v12 (F := Ideal) x0 x1 (ix1 b) = Cert.Spec.rowsum x0 x1 b := by
  rw [val_main_v12_apply, val_main_cst_1_apply, Ideal.ofBits_def, Ideal.ofBits_zero_f32, zero_add]
  unfold Cert.Spec.rowsum
  refine Finset.sum_congr rfl fun n _ => ?_
  rw [idx12_eq, v11_at]

/-- The regularised row sum, spread over the row. -/
theorem v16_at (b : Fin 256) (n : Fin 131072) :
    val_main_v16 (F := Ideal) x0 x1 (ix2 b n) = Cert.Spec.rowsum x0 x1 b + Cert.Spec.eps := by
  rw [val_main_v16_apply, val_main_v15_apply, val_main_v13_apply, val_main_v14_apply, val_main_cst_2_apply, idx16_eq, v12_at,
    Ideal.addf_def, Ideal.ofBits_def]
  rfl

/-- The logarithm of the regularised share. -/
theorem v20_at (b : Fin 256) (n : Fin 131072) :
    val_main_v20 (F := Ideal) x0 x1 (ix2 b n) = Cert.Spec.logp x0 x1 n b := by
  rw [val_main_v20_apply, val_main_v19_apply, val_main_v17_apply, v11_at, v16_at, val_main_v18_apply, val_main_cst_3_apply,
    Ideal.hostUnary_log_def, Ideal.addf_def, Ideal.hostDivf_def, Ideal.ofBits_def]
  rfl

end Floats

/-! ## The target words and the reading of one column per row -/

section Words
variable (x3 : (⟨S256, .i32⟩ : BufTy).Contents (Elt Ideal)) (x4 : (⟨S131072, .i32⟩ : BufTy).Contents (Elt Ideal))

/-- The program's target words are the specification's: the same gather of the labels at the same wrapped index words. -/
theorem v6_eq : val_main_v6 (F := Ideal) x3 x4 = Cert.Spec.targets x3 x4 := rfl

theorem idx21_eq (b : Fin 256) (c : Fin 1) : idx_main_v21 (ix2 b c) = ix1 b := by
  funext a; match a with | ⟨0, _⟩ => rfl

/-- The target words as a column. -/
theorem v21_at (b : Fin 256) (c : Fin 1) :
    val_main_v21 (F := Ideal) x3 x4 (ix2 b c) = Cert.Spec.targets x3 x4 (ix1 b) := by
  rw [val_main_v21_apply, idx21_eq, v6_eq]

theorem toInt_zero32 : (0#32 : BitVec 32).toInt = 0 := by decide
theorem toInt_max32 : (131071#32 : BitVec 32).toInt = 131071 := by decide

/-- A target word is not negative, so the wrap of negative words leaves it as it is. -/
theorem call0_v4_at (hlab : Cert.Spec.LabelsOk x4) (b : Fin 256) (c : Fin 1) :
    val_main_call0_v4 (F := Ideal) x3 x4 (ix2 b c) = Cert.Spec.targets x3 x4 (ix1 b) := by
  have ht := Cert.Spec.targets_ok (idx := x3) hlab b
  rw [val_main_call0_v4_apply, val_main_call0_v1_apply, val_main_call0_v0_apply, val_main_call0_c_apply, v21_at]
  have h0 : IntOp.cmpi .slt (Cert.Spec.targets x3 x4 (ix1 b)) 0#32 = 0#1 := by
    refine eq_zero_of_ne_one fun h => ?_
    have := IntOp.cmpi_slt.1 h
    rw [toInt_zero32] at this
    omega
  rw [h0, select_zero]

theorem idx5_eq (b : Fin 256) (c e : Fin 1) : idx_main_call0_v5 (ix3 b c e) = ix2 b (0 : Fin 1) := by
  funext a
  match a with
  | ⟨0, _⟩ =>
    refine Fin.ext ?_
    show ((b.val * 1 + c.val) * 1 + e.val) / 1 = b.val
    have := c.isLt
    have := e.isLt
    omega
  | ⟨1, _⟩ => rfl

/-- The same words with two unit axes. -/
theorem call0_v5_at (hlab : Cert.Spec.LabelsOk x4) (b : Fin 256) (c e : Fin 1) :
    val_main_call0_v5 (F := Ideal) x3 x4 (ix3 b c e) = Cert.Spec.targets x3 x4 (ix1 b) := by
  rw [val_main_call0_v5_apply, idx5_eq, call0_v4_at x3 x4 hlab]

/-- Every target word is in [0, 131071]: the range test is 1 everywhere. -/
theorem call0_v11_all (hlab : Cert.Spec.LabelsOk x4) (i : S256x1x1.Idx) :
    val_main_call0_v11 (F := Ideal) x3 x4 i = 1#1 := by
  obtain ⟨b, c, e, rfl⟩ : ∃ (b : Fin 256) (c e : Fin 1), i = ix3 b c e := ⟨i 0, i 1, i 2, eq_ix3 i⟩
  have ht := Cert.Spec.targets_ok (idx := x3) hlab b
  rw [val_main_call0_v11_apply, val_main_call0_v7_apply, val_main_call0_v10_apply, call0_v5_at x3 x4 hlab,
    val_main_call0_v6_apply, val_main_call0_c_2_apply, val_main_call0_v9_apply, val_main_call0_v8_apply,
    val_main_call0_c_1_apply]
  refine IntOp.andi_eq_one.2 ⟨IntOp.cmpi_sge.2 ?_, IntOp.cmpi_sle.2 ?_⟩
  · rw [toInt_zero32]; exact ht.1
  · rw [toInt_max32]; omega

/-- So its reduction by `and` over the unit axis is 1. -/
theorem call0_v12_at (hlab : Cert.Spec.LabelsOk x4) (j : S256x1.Idx) :
    val_main_call0_v12 (F := Ideal) x3 x4 j = 1#1 := by
  unfold val_main_call0_v12
  exact reduce_andi_of_all _ _ _ _ (call0_v11_all x3 x4 hlab) rfl j

variable (x0 : (⟨S256x256, .f32⟩ : BufTy).Contents (Elt Ideal)) (x1 : (⟨S131072x256, .f32⟩ : BufTy).Contents (Elt Ideal))

/-- The gathered value of row b: the logarithm at b's target column. -/
theorem call0_v13_at (hlab : Cert.Spec.LabelsOk x4) (b : Fin 256) :
    val_main_call0_v13 (F := Ideal) x0 x1 x3 x4 (ix2 b (0 : Fin 1))
      = Cert.Spec.logp x0 x1 (Cert.Spec.tcol (Cert.Spec.targets x3 x4) b) b := by
  have hw := call0_v5_at x3 x4 hlab b (0 : Fin 1) (0 : Fin 1)
  unfold val_main_call0_v13
  rw [gather_col_apply, v20_at]
  congr 1
  refine Fin.ext ?_
  show min (val_main_call0_v5 (F := Ideal) x3 x4 (ix3 b (0 : Fin 1) (0 : Fin 1))).toInt.toNat 131071
    = min (Cert.Spec.targets x3 x4 (ix1 b)).toInt.toNat 131071
  rw [hw]

/-- The range test passes, so the selection keeps the gathered value. -/
theorem v22_at (hlab : Cert.Spec.LabelsOk x4) (b : Fin 256) :
    val_main_v22 (F := Ideal) x0 x1 x3 x4 (ix2 b (0 : Fin 1))
      = Cert.Spec.logp x0 x1 (Cert.Spec.tcol (Cert.Spec.targets x3 x4) b) b := by
  rw [val_main_v22_apply, call0_v12_at x3 x4 hlab, select_one, call0_v13_at x3 x4 x0 x1 hlab]

end Words

/-- With every label a cluster number below 1000, the reference's result — the chain of its operations read as one
    function of the arguments — is the specification's loss at the target columns. -/
theorem result_eq (x0 : (⟨S256x256, .f32⟩ : BufTy).Contents (Elt Ideal)) (x1 : (⟨S131072x256, .f32⟩ : BufTy).Contents (Elt Ideal))
    (x3 : (⟨S256, .i32⟩ : BufTy).Contents (Elt Ideal)) (x4 : (⟨S131072, .i32⟩ : BufTy).Contents (Elt Ideal))
    (hlab : Cert.Spec.LabelsOk x4) :
    Cert.ReferenceIdeal.Read.val_main_v25 (F := Ideal) x0 x1 x3 x4
      = fun _ => Cert.Spec.loss x0 x1 (Cert.Spec.tcol (Cert.Spec.targets x3 x4)) := by
  funext i
  have hs : (∑ b : Fin 256, ∑ c : Fin 1, val_main_v22 (F := Ideal) x0 x1 x3 x4 (ix2 b c))
      = ∑ b : Fin 256, Cert.Spec.logp x0 x1 (Cert.Spec.tcol (Cert.Spec.targets x3 x4) b) b :=
    Finset.sum_congr rfl fun b _ => by
      rw [Fin.sum_univ_one]
      exact v22_at x3 x4 x0 x1 hlab b
  rw [val_main_v25_apply, val_main_v24_apply, val_main_v23_apply, val_main_cst_4_apply, val_main_cst_5_apply,
    Ideal.hostNegf_def, Ideal.negf_def, Ideal.hostDivf_def, Ideal.ofBits_def, Ideal.ofBits_def, Ideal.ofBits_zero_f32,
    zero_add, sum_idx2, hs]
  rfl

end Cert.ReferenceIdeal.RefValue

end
-- ==== Proof.KPieces.lean ====
/-
  What each control case of the kernel body leaves in the two carried accumulators and, at a chunk's last tile, in
  the two output blocks, as values: the running sum accumulator ends at the tile's payload added to what it held (to
  zero where the case resets it first), the target accumulator at the indicator-weighted sum where the case computes
  it and at zero where the case only resets it, and the output blocks are the accumulators recast to [1, 1, 256].
-/
import proofs.«409396_j62474594288059_2_alg».proof.Proof.Gen.KernelIdeal.Frame
import Idealize.ShloMosaic.Lib.Pipeline.Value
import Idealize.ShloMosaic.Lib.Tactic

set_option maxRecDepth 16384

noncomputable section

namespace Cert.KernelIdeal.KPieces

open Cert.KernelIdeal Cert.KernelIdeal.Gen
open Idealize.ShloMosaic Idealize.ShloMosaic.TcCoe Idealize.SL.Sem Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first tile of the first chunk: the running sum is reset and then holds the tile's sum added to zero. -/
theorem sumA (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : cond0_1 i) (hc2 : ¬cond0_2 i) (x0 : Vec F S256x256 .f32) (x1 : Vec F S4096x256 .f32) (x2 : Vec F S1024x256 .f32) :
    sout0_A_0 c i arg2 harg2 arg3 harg3 arg4 harg4 arg5 harg5 arg6 harg6 arg7 harg7 arg8 harg8 hc0 hc1 hc2 x0 x1 x2 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 hc2 x0 x1 x2)]
  unfold kernelRun0_A
  dsimp only
  sl_unfold_words
  rw [View.canon_cons_unit_zero (S := S1x256) hz2]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- The first tile of the first chunk: the target accumulator is reset and then overwritten by the indicator-weighted sum. -/
theorem tgtA (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : cond0_1 i) (hc2 : ¬cond0_2 i) (x0 : Vec F S256x256 .f32) (x1 : Vec F S4096x256 .f32) (x2 : Vec F S1024x256 .f32) :
    sout0_A_1 c i arg2 harg2 arg3 harg3 arg4 harg4 arg5 harg5 arg6 harg6 arg7 harg7 arg8 harg8 hc0 hc1 hc2 x0 x1 x2 = k0_pay5 x0 x1 x2 := by
  unfold sout0_A_1
  rw [View.read_writes_eq_canon _ _ _ (scover0_A_1 c i arg2 harg2 arg3 harg3 arg4 harg4 arg5 harg5 arg6 harg6 arg7 harg7 arg8 harg8 hc0 hc1 hc2 x0 x1 x2)]
  unfold kernelRun0_A
  dsimp only
  sl_unfold_words
  rw [View.canon_cons_unit_zero (S := S1x256) hz2]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- A middle tile: the running sum holds the tile's sum added to what it held. -/
theorem sumB (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i) (hc2 : ¬cond0_2 i) (x0 : Vec F S256x256 .f32) (x1 : Vec F S4096x256 .f32) (x2 : Vec F S1024x256 .f32) (xs0 : Vec F S1x256 .f32) (xs1 : Vec F S1x256 .f32) :
    sout0_B_0 c i arg2 harg2 arg3 harg3 arg4 harg4 arg5 harg5 arg6 harg6 arg7 harg7 arg8 harg8 hc0 hc1 hc2 x0 x1 x2 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- A chunk's last tile: the running sum holds the tile's sum added to what it held; -/
theorem sumC (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i) (hc2 : cond0_2 i) (x0 : Vec F S256x256 .f32) (x1 : Vec F S4096x256 .f32) (x2 : Vec F S1024x256 .f32) (xs0 : Vec F S1x256 .f32) (xs1 : Vec F S1x256 .f32) :
    sout0_C_0 c i arg2 harg2 arg3 harg3 arg4 harg4 arg5 harg5 arg6 harg6 arg7 harg7 arg8 harg8 hc0 hc1 hc2 x0 x1 x2 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 hc0 hc1 hc2 x0 x1 x2 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- the first output block is that sum recast; -/
theorem outC3 (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i) (hc2 : cond0_2 i) (x0 : Vec F S256x256 .f32) (x1 : Vec F S4096x256 .f32) (x2 : Vec F S1024x256 .f32) (xs0 : Vec F S1x256 .f32) (xs1 : Vec F S1x256 .f32) :
    out0_C_3 c i arg2 harg2 arg3 harg3 arg4 harg4 arg5 harg5 arg6 harg6 arg7 harg7 arg8 harg8 hc0 hc1 hc2 x0 x1 x2 xs0 xs1 = k0_pay6 (k0_pay4 x0 x1 xs0) := by
  unfold out0_C_3
  rw [View.read_writes_eq_canon _ _ _ (cover0_C_3 c i arg2 harg2 arg3 harg3 arg4 harg4 arg5 harg5 arg6 harg6 arg7 harg7 arg8 harg8 hc0 hc1 hc2 x0 x1 x2 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- the second output block is the target accumulator recast. -/
theorem outC4 (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i) (hc2 : cond0_2 i) (x0 : Vec F S256x256 .f32) (x1 : Vec F S4096x256 .f32) (x2 : Vec F S1024x256 .f32) (xs0 : Vec F S1x256 .f32) (xs1 : Vec F S1x256 .f32) :
    out0_C_4 c i arg2 harg2 arg3 harg3 arg4 harg4 arg5 harg5 arg6 harg6 arg7 harg7 arg8 harg8 hc0 hc1 hc2 x0 x1 x2 xs0 xs1 = k0_pay7 xs1 := by
  unfold out0_C_4
  rw [View.read_writes_eq_canon _ _ _ (cover0_C_4 c i arg2 harg2 arg3 harg3 arg4 harg4 arg5 harg5 arg6 harg6 arg7 harg7 arg8 harg8 hc0 hc1 hc2 x0 x1 x2 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- The first tile of the second chunk: the running sum is reset and then holds the tile's sum added to zero; -/
theorem sumD (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i) (hc2 : ¬cond0_2 i) (x0 : Vec F S256x256 .f32) (x1 : Vec F S4096x256 .f32) (x2 : Vec F S1024x256 .f32) :
    sout0_D_0 c i arg2 harg2 arg3 harg3 arg4 harg4 arg5 harg5 arg6 harg6 arg7 harg7 arg8 harg8 hc0 hc1 hc2 x0 x1 x2 = k0_pay4 x0 x1 (k0_pay1 (F := F)) := by
  unfold sout0_D_0
  rw [View.read_writes_eq_canon _ _ _ (scover0_D_0 c i arg2 harg2 arg3 harg3 arg4 harg4 arg5 harg5 arg6 harg6 arg7 harg7 arg8 harg8 hc0 hc1 hc2 x0 x1 x2)]
  unfold kernelRun0_D
  dsimp only
  sl_unfold_words
  rw [View.canon_cons_unit_zero (S := S1x256) hz2]
  simp only [View.readAt_eq_ld, harg2.read_unread, harg3.read_unread, harg4.read_unread, harg5.read_unread, harg6.read_unread, harg7.read_unread, harg8.read_unread, View.ld_unit_zero (S := S256x256) hz2, View.ld_unit_zero (S := S4096x256) hz2, View.ld_unit_zero (S := S1024x256) hz2, View.ld_unit_zero (S := S1x256) hz2, View.ld_unit_zero (S := S1x1x256) hz3, View.readCov_unit_zero (S := S1x256) _ hz2]

/-- the target accumulator is reset to zero. -/
theorem tgtD (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S1024x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i) (hc2 : ¬cond0_2 i) (x0 : Vec F S256x256 .f32) (x1 : Vec F S4096x256 .f32) (x2 : Vec F S1024x256 .f32) :
    sout0_D_1 c i arg2 harg2 arg3 harg3 arg4 harg4 arg5 harg5 arg6 harg6 arg7 harg7 arg8 harg8 hc0 hc1 hc2 x0 x1 x2 = k0_pay2 (F := F) := by
  unfold sout0_D_1
  rw [View.read_writes_eq_canon _ _ _ (scover0_D_1 c i arg2 harg2 arg3 harg3 arg4 harg4 arg5 harg5 arg6 harg6 arg7 harg7 arg8 harg8 hc0 hc1 hc2 x0 x1 x2)]
  unfold kernelRun0_D
  dsimp only
  sl_unfold_words
  rw [View.canon_unit_zero hz2]

end Cert.KernelIdeal.KPieces

end
-- ==== Proof.LibDotRows.lean ====
/-
  A product of two matrices that contracts the LAST axis of both, read at an entry.

  For a left operand of shape [R, K], a right operand of shape [N, K] and dimension numbers
  "contract axis 1 with axis 1, free axes 0 and 0, no batch axes", the contraction shape has the one axis of extent
  K, the left operand is read at (p, k) and the right at (n, k); so over the extended reals the product accumulated
  into the zero splat is, at (p, n), the plain sum ∑ k, l (p, k) * r (n, k): row p of the left operand against row n
  of the right.  Stated for ANY such record of dimension numbers, whatever its name, from the six equations that
  say which lists it holds (each `rfl` for a printed record).
-/
import Idealize.ShloMosaic.PureOps.Ideal.Laws
import Idealize.ShloMosaic.Lib.ValueIdx

noncomputable section

namespace Cert.LibDotRows

open Idealize.ShloMosaic Idealize.ShloMosaic.ValueIdx

variable {R K N : Nat} (D : DotDims ⟨2, ![R, K]⟩ ⟨2, ![N, K]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the result's column. -/
theorem rhs_row (hln : D.lhsNonContracting = [0]) (hrn : D.rhsNonContracting = [0]) (hlb : D.lhsBatch = [])
    (hrb : D.rhsBatch = []) (i : (⟨2, ![R, N]⟩ : Shape).Idx) (q : D.contr.Idx) : (D.rhsIdx i q 0).val = (i 1).val := by
  unfold DotDims.rhsIdx
  rw [dif_neg (show ¬(0 : Fin (⟨2, ![N, K]⟩ : Shape).rank) ∈ D.rhsBatch by rw [hrb]; exact List.not_mem_nil),
    dif_pos (show (0 : Fin (⟨2, ![N, K]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- The right operand's column is the contraction coordinate. -/
theorem rhs_col (hlc : D.lhsContracting = [1]) (hrc : D.rhsContracting = [1]) (i : (⟨2, ![R, N]⟩ : Shape).Idx)
    (q : D.contr.Idx) : (D.rhsIdx i q 1).val = (q ⟨0, by rw [contr_rank D hlc]; exact Nat.one_pos⟩).val :=
  D.rhsIdx_val_of_single hrc i q

/-- THE PRODUCT AT AN ENTRY: accumulated into the zero splat, at (p, n), it is row p of the left operand against
    row n of the right. -/
theorem matmul_zero_rows {φ₁ φ₂ : FTy} (prec : Option ContractPrecision)
    (hlc : D.lhsContracting = [1]) (hrc : D.rhsContracting = [1]) (hln : D.lhsNonContracting = [0])
    (hrn : D.rhsNonContracting = [0]) (hlb : D.lhsBatch = []) (hrb : D.rhsBatch = [])
    (l : FVec Ideal ⟨2, ![R, K]⟩ φ₁) (r : FVec Ideal ⟨2, ![N, K]⟩ φ₂) (p : Fin R) (n : Fin N) :
    FloatOps.matmul D prec l r (constant ⟨2, ![R, N]⟩ .f32 0x00000000#32) (ix2 p n)
      = ∑ k : Fin K, l (ix2 p k) * r (ix2 n k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 n k :=
    funext fun a => Fin.ext (by
      match a with
      | ⟨0, _⟩ => exact rhs_row D hln hrn hlb hrb _ _
      | ⟨1, _⟩ => exact (rhs_col D hlc hrc _ _).trans hk)
  rw [el, er]

end Cert.LibDotRows

end
-- ==== Proof.KPay.lean ====
/-
  The kernel body's arithmetic, read entry by entry over the extended reals.

  For a tile x1 of 4096 bank rows and the queries x0, the tile's exponentials are exp((∑ d, x1 r d · x0 b d) · κ) at
  (r, b); the running sum adds their column sums to what it held; the target accumulator is the column sum of the
  first 1024 rows' exponentials, each multiplied by the indicator entry beside it; the output blocks are recasts.
-/
import proofs.«409396_j62474594288059_2_alg».proof.Proof.Gen.KernelIdeal.Skeleton
import proofs.«409396_j62474594288059_2_alg».proof.Proof.Spec
import proofs.«409396_j62474594288059_2_alg».proof.Proof.LibDotRows
import Idealize.ShloMosaic.Lib.ValueLayout
import Idealize.ShloMosaic.Lib.Pipeline.Value
import Idealize.ShloMosaic.PureOps.IdealRules
import Idealize.ShloMosaic.PureOps.Ideal.Laws

noncomputable section

namespace Cert.KernelIdeal.KPay

open Cert.KernelIdeal Cert.KernelIdeal.Gen
open Idealize.ShloMosaic Idealize.ShloMosaic.TcCoe Idealize.SL.Sem Idealize.ShloMosaic.ValueIdx

/-- The named temperature constant denotes κ. -/
theorem kap_eq : Named.named (F := Ideal) Cert.KernelIdeal.κ "inv_temp" (φ := .f32) 0x41A00000#32 = Cert.Spec.kap :=
  IdealRules.named_const.ideal_named_scalar _ _ _ _ rfl

/-- A column sum over the 4096 rows of a tile. -/
theorem colsum4096 (src : FVec Ideal S4096x256 .f32) (b : Fin 256) :
    multiReduction .add [0] S256 src 0x00000000#32 reduces_S4096x256_S256 (.inl rfl) rfl (ix1 b)
      = ∑ r : Fin 4096, src (ix2 r b) :=
  (Ideal.multiReduction_add_single src 0x00000000#32 reduces_S4096x256_S256 (.inl rfl) rfl (ix1 b)).trans
    (Finset.sum_congr rfl fun r _ => congrArg src (funext fun a => Fin.ext (by
      match a with
      | ⟨0, _⟩ => rfl
      | ⟨1, _⟩ => rfl)))

/-- A column sum over 1024 rows. -/
theorem colsum1024 (src : FVec Ideal S1024x256 .f32) (b : Fin 256) :
    multiReduction .add [0] S256 src 0x00000000#32 reduces_S1024x256_S256 (.inl rfl) rfl (ix1 b)
      = ∑ r : Fin 1024, src (ix2 r b) :=
  (Ideal.multiReduction_add_single src 0x00000000#32 reduces_S1024x256_S256 (.inl rfl) rfl (ix1 b)).trans
    (Finset.sum_congr rfl fun r _ => congrArg src (funext fun a => Fin.ext (by
      match a with
      | ⟨0, _⟩ => rfl
      | ⟨1, _⟩ => rfl)))

variable (x0 : FVec Ideal S256x256 .f32) (x1 : FVec Ideal S4096x256 .f32)

/-- The tile's exponentials: row r of the tile against query b, scaled by κ. -/
theorem pay3_apply (r : Fin 4096) (b : Fin 256) :
    k0_pay3 (F := Ideal) x0 x1 (ix2 r b) = Ideal.exp ((∑ d : Fin 256, x1 (ix2 r d) * x0 (ix2 b d)) * Cert.Spec.kap) := by
  unfold k0_pay3
  show Ideal.exp (FloatOps.matmul dot_S4096x256_S256x256_S4096x256_1_1_0_0_n_n none (truncf .bf16 x1 bitsLt_bf16_f32)
      (truncf .bf16 x0 bitsLt_bf16_f32) (constant S4096x256 .f32 0x00000000#32) (ix2 r b)
        * Named.named (F := Ideal) Cert.KernelIdeal.κ "inv_temp" (φ := .f32) 0x41A00000#32) = _
  rw [kap_eq, Cert.LibDotRows.matmul_zero_rows dot_S4096x256_S256x256_S4096x256_1_1_0_0_n_n none rfl rfl rfl rfl rfl rfl]
  rfl

/-- The reset value is zero. -/
theorem pay1_apply (y : S1x256.Idx) : k0_pay1 (F := Ideal) y = 0 := by
  unfold k0_pay1
  rw [shapeCast_self]
  exact Ideal.ofBits_zero_f32

theorem pay2_apply (y : S1x256.Idx) : k0_pay2 (F := Ideal) y = 0 := by
  unfold k0_pay2
  rw [shapeCast_self]
  exact Ideal.ofBits_zero_f32

/-- The running sum after a tile: what it held plus the column sum of the tile's exponentials. -/
theorem pay4_apply (acc : FVec Ideal S1x256 .f32) (u : Fin 1) (b : Fin 256) :
    k0_pay4 (F := Ideal) x0 x1 acc (ix2 u b) = acc (ix2 u b) + ∑ r : Fin 4096, k0_pay3 (F := Ideal) x0 x1 (ix2 r b) := by
  unfold k0_pay4
  rw [shapeCast_self]
  show acc (ix2 u b) + shapeCast S1x256 (multiReduction .add [0] S256 (k0_pay3 (F := Ideal) x0 x1) 0x00000000#32
      reduces_S4096x256_S256 (.inl rfl) rfl) shapeCasts_S256_S1x256 (ix2 u b) = _
  rw [shapeCast_a_1a_apply, colsum4096]

/-- The target accumulator: the column sum, over the tile's first 1024 rows, of exponential times indicator. -/
theorem pay5_apply (oh : FVec Ideal S1024x256 .f32) (u : Fin 1) (b : Fin 256) :
    k0_pay5 (F := Ideal) x0 x1 oh (ix2 u b)
      = ∑ col : Fin 1024, k0_pay3 (F := Ideal) x0 x1 (ix2 ⟨col.val, by have := col.isLt; omega⟩ b) * oh (ix2 col b) := by
  unfold k0_pay5
  rw [shapeCast_self, shapeCast_a_1a_apply, colsum1024]
  refine Finset.sum_congr rfl fun col _ => ?_
  rw [shapeCast_self]
  show extractStridedSlice S1024x256 ![0, 0] (k0_pay3 (F := Ideal) x0 x1) slices_S4096x256_o0_0_S1024x256 (ix2 col b) * oh (ix2 col b) = _
  rw [slice2_axis0_apply 0 (k0_pay3 (F := Ideal) x0 x1) slices_S4096x256_o0_0_S1024x256 col b ⟨col.val, by have := col.isLt; omega⟩ (by simp)]

/-- The output blocks are the accumulators with a unit axis added in front. -/
theorem pay6_apply (v : FVec Ideal S1x256 .f32) (u w : Fin 1) (b : Fin 256) : k0_pay6 (F := Ideal) v (ix3 u w b) = v (ix2 w b) := by
  unfold k0_pay6
  exact shapeCast_ab_1ab_apply v shapeCasts_S1x256_S1x1x256 u w b

theorem pay7_apply (v : FVec Ideal S1x256 .f32) (u w : Fin 1) (b : Fin 256) : k0_pay7 (F := Ideal) v (ix3 u w b) = v (ix2 w b) := by
  unfold k0_pay7
  exact shapeCast_ab_1ab_apply v shapeCasts_S1x256_S1x1x256 u w b

end Cert.KernelIdeal.KPay

end
-- ==== Proof.KBlocks.lean ====
/-
  The blocks the kernel's body is handed at grid point t, read entry by entry: the queries whole, tile t of the bank
  (rows 4096 t … 4096 t + 4095), and the indicator array whole.
-/
import proofs.«409396_j62474594288059_2_alg».proof.Proof.Gen.KernelIdeal.Frame
import proofs.«409396_j62474594288059_2_alg».proof.Proof.Spec
import Idealize.ShloMosaic.Lib.Pipeline.Value

noncomputable section

namespace Cert.KernelIdeal.KBlocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The queries and the bank as launched, and the indicator array as the region finds it, at their literal types. -/
abbrev Xq (c : Dev nD) : Cert.Spec.SX.Idx → EReal := m ((c : Thread nD τ).loc main_arg0)
abbrev Cb (c : Dev nD) : Cert.Spec.SC.Idx → EReal := m ((c : Thread nD τ).loc main_arg1)
abbrev Oh (c : Dev nD) : S1024x256.Idx → EReal := V m c main_call0_v13

/-- The three input blocks at a point, at their literal types. -/
abbrev blk0 (c : Dev nD) (t : Fin cfg0.N) : FVec Ideal S256x256 .f32 := iblk m c 0 t
abbrev blk1 (c : Dev nD) (t : Fin cfg0.N) : FVec Ideal S4096x256 .f32 := iblk m c 1 t
abbrev blk2 (c : Dev nD) (t : Fin cfg0.N) : FVec Ideal S1024x256 .f32 := iblk m c 2 t

theorem N32 : cfg0.N = 32 := N_0

/-- The block indices of the three input windows, decided once over the grid: the queries' and the indicators' block is
    always block (0, 0); the bank's block at point t is block (t, 0). -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- The queries' block is the whole array of queries. -/
theorem blk0_apply (c : Dev nD) (t : Fin cfg0.N) (b d : Fin 256) : blk0 m c t (ix2 b d) = Xq m c (ix2 b d) := by
  show iblk m c 0 t (ix2 b d) = _
  unfold iblk
  rw [View.read_apply]
  show V m c main_arg0 (((cfg0.win 0).blk t).view.emb (ix2 b d)) = m ((c : Thread nD τ).loc main_arg0) (ix2 b d)
  refine (congrFun (V_main_arg0 m c) _).trans ?_
  congr 1
  funext a
  apply Fin.ext
  match a with
  | ⟨0, _⟩ => show win0_0.index t 0 * 256 + 1 * b.val = b.val; rw [(idx0 t).1]; omega
  | ⟨1, _⟩ => show win0_0.index t 1 * 256 + 1 * d.val = d.val; rw [(idx0 t).2]; omega

/-- The bank's block at point t is rows 4096 t … of the bank. -/
theorem blk1_apply (c : Dev nD) (t : Fin cfg0.N) (r : Fin 4096) (d : Fin 256) :
    blk1 m c t (ix2 r d)
      = Cb m c (ix2 ⟨t.val * 4096 + r.val, by have := t.isLt; have := N32; have := r.isLt; omega⟩ d) := by
  show iblk m c 1 t (ix2 r d) = _
  unfold iblk
  rw [View.read_apply]
  show V m c main_arg1 (((cfg0.win 1).blk t).view.emb (ix2 r d)) = m ((c : Thread nD τ).loc main_arg1) _
  refine (congrFun (V_main_arg1 m c) _).trans ?_
  congr 1
  funext a
  apply Fin.ext
  match a with
  | ⟨0, _⟩ => show win0_1.index t 0 * 4096 + 1 * r.val = t.val * 4096 + r.val; rw [(idx1 t).1]; omega
  | ⟨1, _⟩ => show win0_1.index t 1 * 256 + 1 * d.val = d.val; rw [(idx1 t).2]; omega

/-- The indicators' block is the whole indicator array. -/
theorem blk2_apply (c : Dev nD) (t : Fin cfg0.N) (col : Fin 1024) (b : Fin 256) : blk2 m c t (ix2 col b) = Oh m c (ix2 col b) := by
  show iblk m c 2 t (ix2 col b) = _
  unfold iblk
  rw [View.read_apply]
  show V m c main_call0_v13 (((cfg0.win 2).blk t).view.emb (ix2 col b)) = V m c main_call0_v13 (ix2 col b)
  congr 1
  funext a
  apply Fin.ext
  match a with
  | ⟨0, _⟩ => show win0_2.index t 0 * 1024 + 1 * col.val = col.val; rw [(idx2 t).1]; omega
  | ⟨1, _⟩ => show win0_2.index t 1 * 256 + 1 * b.val = b.val; rw [(idx2 t).2]; omega

end Cert.KernelIdeal.KBlocks

end
-- ==== Proof.KSteps.lean ====
/-
  One grid point's effect on the two accumulators, case by case.

  Writing Sₜ for the column sums of tile t's exponentials: at a chunk's first tile the running sum becomes Sₜ (it is
  reset first), at every other tile it grows by Sₜ; the target accumulator is the indicator-weighted column sum at the
  very first tile, zero at the second chunk's first tile, and unchanged elsewhere; at a chunk's last tile the two
  output blocks are the two accumulators.
-/
import proofs.«409396_j62474594288059_2_alg».proof.Proof.KPieces
import proofs.«409396_j62474594288059_2_alg».proof.Proof.KPay
import proofs.«409396_j62474594288059_2_alg».proof.Proof.KBlocks

set_option maxRecDepth 16384

noncomputable section

namespace Cert.KernelIdeal.KSteps

open Cert.KernelIdeal Cert.KernelIdeal.Gen Cert.KernelIdeal.KBlocks
open Idealize.ShloMosaic Idealize.ShloMosaic.TcCoe Idealize.SL.Sem Idealize.ShloMosaic.ValueIdx

variable (m : (ℓ : Loc nD τ sig) → Buf (Elt Ideal) ℓ)

/-- What the two accumulators and the two output blocks hold after the body at position n. -/
abbrev sumAt (c : Dev nD) (n : ℕ) (h : n < cfg0.N) : FVec Ideal S1x256 .f32 := (outsAt0 m c n h).2.2.1
abbrev tgtAt (c : Dev nD) (n : ℕ) (h : n < cfg0.N) : FVec Ideal S1x256 .f32 := (outsAt0 m c n h).2.2.2
abbrev out3At (c : Dev nD) (n : ℕ) (h : n < cfg0.N) : FVec Ideal S1x1x256 .f32 := (outsAt0 m c n h).1
abbrev out4At (c : Dev nD) (n : ℕ) (h : n < cfg0.N) : FVec Ideal S1x1x256 .f32 := (outsAt0 m c n h).2.1

/-- What the point before t left in the accumulators. -/
abbrev prevSum (c : Dev nD) (t : Fin cfg0.N) : FVec Ideal S1x256 .f32 :=
  (outsAt0 m c (t.val - 1) (Nat.lt_of_le_of_lt (Nat.sub_le _ _) t.isLt)).2.2.1
abbrev prevTgt (c : Dev nD) (t : Fin cfg0.N) : FVec Ideal S1x256 .f32 :=
  (outsAt0 m c (t.val - 1) (Nat.lt_of_le_of_lt (Nat.sub_le _ _) t.isLt)).2.2.2

/-- The column sums of tile t's exponentials are the specification's tile sum. -/
theorem tile_sum (c : Dev nD) (t : Fin cfg0.N) (b : Fin 256) :
    ∑ r : Fin 4096, k0_pay3 (F := Ideal) (blk0 m c t) (blk1 m c t) (ix2 r b) = Cert.Spec.tileSum (Xq m c) (Cb m c) t.val b := by
  rw [Cert.Spec.tileSum_eq _ _ t.val (by have := t.isLt; have := N32; omega) b]
  refine Finset.sum_congr rfl fun r _ => ?_
  rw [KPay.pay3_apply]
  unfold Cert.Spec.ex Cert.Spec.logit
  refine congrArg Ideal.exp (congrArg (· * Cert.Spec.kap) (Finset.sum_congr rfl fun d _ => ?_))
  rw [blk1_apply, blk0_apply]

/-- Case A (the very first tile): the running sum is the tile's sum; -/
theorem sumA (c : Dev nD) (t : Fin cfg0.N) (h0 : t.val % 16 = 0) (h1 : t.val % 32 = 0) (h2 : ¬t.val % 16 = 15) (u : Fin 1) (b : Fin 256) :
    sumAt m c t.val t.isLt (ix2 u b) = Cert.Spec.tileSum (Xq m c) (Cb m c) t.val b := by
  show (outsAt0 m c t.val t.isLt).2.2.1 (ix2 u b) = _
  rw [outsAt0_A m c t h0 h1 h2]
  dsimp only
  refine (congrFun (KPieces.sumA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (blk0 m c t) (blk1 m c t) (blk2 m c t)) (ix2 u b)).trans ?_
  rw [KPay.pay4_apply, KPay.pay1_apply, zero_add, tile_sum]

/-- and the target accumulator is the indicator-weighted column sum over the tile's first 1024 rows. -/
theorem tgtA (c : Dev nD) (t : Fin cfg0.N) (h0 : t.val % 16 = 0) (h1 : t.val % 32 = 0) (h2 : ¬t.val % 16 = 15) (u : Fin 1) (b : Fin 256) :
    tgtAt m c t.val t.isLt (ix2 u b)
      = ∑ col : Fin 1024, k0_pay3 (F := Ideal) (blk0 m c t) (blk1 m c t) (ix2 ⟨col.val, by have := col.isLt; omega⟩ b) * blk2 m c t (ix2 col b) := by
  show (outsAt0 m c t.val t.isLt).2.2.2 (ix2 u b) = _
  rw [outsAt0_A m c t h0 h1 h2]
  dsimp only
  refine (congrFun (KPieces.tgtA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) ((hcond0_1 t).mpr h1) (fun h => h2 ((hcond0_2 t).mp h)) (blk0 m c t) (blk1 m c t) (blk2 m c t)) (ix2 u b)).trans ?_
  rw [KPay.pay5_apply]

/-- Case D (the second chunk's first tile): the running sum is the tile's sum, the target accumulator zero. -/
theorem sumD (c : Dev nD) (t : Fin cfg0.N) (h0 : t.val % 16 = 0) (h1 : ¬t.val % 32 = 0) (h2 : ¬t.val % 16 = 15) (u : Fin 1) (b : Fin 256) :
    sumAt m c t.val t.isLt (ix2 u b) = Cert.Spec.tileSum (Xq m c) (Cb m c) t.val b := by
  show (outsAt0 m c t.val t.isLt).2.2.1 (ix2 u b) = _
  rw [outsAt0_D m c t h0 h1 h2]
  dsimp only
  refine (congrFun (KPieces.sumD (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (blk0 m c t) (blk1 m c t) (blk2 m c t)) (ix2 u b)).trans ?_
  rw [KPay.pay4_apply, KPay.pay1_apply, zero_add, tile_sum]

theorem tgtD (c : Dev nD) (t : Fin cfg0.N) (h0 : t.val % 16 = 0) (h1 : ¬t.val % 32 = 0) (h2 : ¬t.val % 16 = 15) (u : Fin 1) (b : Fin 256) :
    tgtAt m c t.val t.isLt (ix2 u b) = 0 := by
  show (outsAt0 m c t.val t.isLt).2.2.2 (ix2 u b) = _
  rw [outsAt0_D m c t h0 h1 h2]
  dsimp only
  refine (congrFun (KPieces.tgtD (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (fun h => h2 ((hcond0_2 t).mp h)) (blk0 m c t) (blk1 m c t) (blk2 m c t)) (ix2 u b)).trans ?_
  exact KPay.pay2_apply _

/-- Case B (a middle tile): the running sum grows by the tile's sum, the target accumulator is kept. -/
theorem sumB (c : Dev nD) (t : Fin cfg0.N) (h0 : ¬t.val % 16 = 0) (h1 : ¬t.val % 32 = 0) (h2 : ¬t.val % 16 = 15) (u : Fin 1) (b : Fin 256) :
    sumAt m c t.val t.isLt (ix2 u b) = prevSum m c t (ix2 u b) + Cert.Spec.tileSum (Xq m c) (Cb m c) t.val b := by
  show (outsAt0 m c t.val t.isLt).2.2.1 (ix2 u b) = _
  rw [outsAt0_B m c t h0 h1 h2]
  dsimp only
  refine (congrFun (KPieces.sumB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (fun h => h2 ((hcond0_2 t).mp h)) (blk0 m c t) (blk1 m c t) (blk2 m c t) (prevSum m c t) (prevTgt m c t)) (ix2 u b)).trans ?_
  rw [KPay.pay4_apply, tile_sum]

theorem tgtB (c : Dev nD) (t : Fin cfg0.N) (h0 : ¬t.val % 16 = 0) (h1 : ¬t.val % 32 = 0) (h2 : ¬t.val % 16 = 15) :
    tgtAt m c t.val t.isLt = prevTgt m c t := by
  show (outsAt0 m c t.val t.isLt).2.2.2 = _
  rw [outsAt0_B m c t h0 h1 h2]
  rfl

/-- Case C (a chunk's last tile): the same for the accumulators, -/
theorem sumC (c : Dev nD) (t : Fin cfg0.N) (h0 : ¬t.val % 16 = 0) (h1 : ¬t.val % 32 = 0) (h2 : t.val % 16 = 15) (u : Fin 1) (b : Fin 256) :
    sumAt m c t.val t.isLt (ix2 u b) = prevSum m c t (ix2 u b) + Cert.Spec.tileSum (Xq m c) (Cb m c) t.val b := by
  show (outsAt0 m c t.val t.isLt).2.2.1 (ix2 u b) = _
  rw [outsAt0_C m c t h0 h1 h2]
  dsimp only
  refine (congrFun (KPieces.sumC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (blk0 m c t) (blk1 m c t) (blk2 m c t) (prevSum m c t) (prevTgt m c t)) (ix2 u b)).trans ?_
  rw [KPay.pay4_apply, tile_sum]

theorem tgtC (c : Dev nD) (t : Fin cfg0.N) (h0 : ¬t.val % 16 = 0) (h1 : ¬t.val % 32 = 0) (h2 : t.val % 16 = 15) :
    tgtAt m c t.val t.isLt = prevTgt m c t := by
  show (outsAt0 m c t.val t.isLt).2.2.2 = _
  rw [outsAt0_C m c t h0 h1 h2]
  rfl

/-- and the two output blocks are the running sum after this tile and the target accumulator. -/
theorem out3C (c : Dev nD) (t : Fin cfg0.N) (h0 : ¬t.val % 16 = 0) (h1 : ¬t.val % 32 = 0) (h2 : t.val % 16 = 15) (u w : Fin 1) (b : Fin 256) :
    out3At m c t.val t.isLt (ix3 u w b) = prevSum m c t (ix2 w b) + Cert.Spec.tileSum (Xq m c) (Cb m c) t.val b := by
  show (outsAt0 m c t.val t.isLt).1 (ix3 u w b) = _
  rw [outsAt0_C m c t h0 h1 h2]
  dsimp only
  refine (congrFun (KPieces.outC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (blk0 m c t) (blk1 m c t) (blk2 m c t) (prevSum m c t) (prevTgt m c t)) (ix3 u w b)).trans ?_
  rw [KPay.pay6_apply, KPay.pay4_apply, tile_sum]

theorem out4C (c : Dev nD) (t : Fin cfg0.N) (h0 : ¬t.val % 16 = 0) (h1 : ¬t.val % 32 = 0) (h2 : t.val % 16 = 15) (u w : Fin 1) (b : Fin 256) :
    out4At m c t.val t.isLt (ix3 u w b) = prevTgt m c t (ix2 w b) := by
  show (outsAt0 m c t.val t.isLt).2.1 (ix3 u w b) = _
  rw [outsAt0_C m c t h0 h1 h2]
  dsimp only
  refine (congrFun (KPieces.outC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) ((hcond0_2 t).mpr h2) (blk0 m c t) (blk1 m c t) (blk2 m c t) (prevSum m c t) (prevTgt m c t)) (ix3 u w b)).trans ?_
  rw [KPay.pay7_apply]

end Cert.KernelIdeal.KSteps

end
-- ==== Proof.OneHot.lean ====
/-
  What the host operations before the kernel's region leave: the target words, and the [1024, 256] array whose
  entry (col, b) is 1 when col is query b's target column and 0 otherwise.
-/
import proofs.«409396_j62474594288059_2_alg».proof.Proof.Gen.KernelIdeal.Frame
import proofs.«409396_j62474594288059_2_alg».proof.Proof.Spec
import Idealize.ShloMosaic.Lib.Pipeline.Value
import Idealize.ShloMosaic.Lib.StableHlo.Run

noncomputable section

namespace Cert.KernelIdeal.OneHot

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The [1024, 256] array the region finds where the host built the indicators, at its literal type. -/
abbrev ohArr (c : Dev nD) : S1024x256.Idx → EReal := V m c main_call0_v13

/-! ## Two broadcasts read at an entry -/

/-- A vector of 1024 words laid along the first axis of the [1024, 256] array (constant along each row) reads, at
    (col, b), the vector at col. -/
theorem rows_apply {α : Type} (v : S1024.Idx → α) (col : Fin 1024) (b : Fin 256) :
    broadcastInDim S1024x256 ![0, 1] Facts₀.bcast_S1024x1_S1024x256_0_1
      (broadcastInDim S1024x1 ![0] Facts₀.bcast_S1024_S1024x1_0 v) (ix2 col b) = v (ix1 col) := by
  refine (broadcastInDim_apply _ _ _ _ (ix2 col (0 : Fin 1)) (fun a => ?_)).trans
    (broadcastInDim_apply _ _ _ _ (ix1 col) (fun a => ?_))
  · match a with
    | ⟨0, _⟩ => rfl
    | ⟨1, _⟩ => rfl
  · match a with
    | ⟨0, _⟩ => rfl

/-- A vector of 256 words laid along the second axis (constant down each column) reads, at (col, b), the vector at b. -/
theorem cols_apply {α : Type} (v : S256.Idx → α) (col : Fin 1024) (b : Fin 256) :
    broadcastInDim S1024x256 ![0, 1] Facts₀.bcast_S1x256_S1024x256_0_1
      (broadcastInDim S1x256 ![1] Facts₀.bcast_S256_S1x256_1 v) (ix2 col b) = v (ix1 b) := by
  refine (broadcastInDim_apply _ _ _ _ (ix2 (0 : Fin 1) b) (fun a => ?_)).trans
    (broadcastInDim_apply _ _ _ _ (ix1 b) (fun a => ?_))
  · match a with
    | ⟨0, _⟩ => rfl
    | ⟨1, _⟩ => rfl
  · match a with
    | ⟨0, _⟩ => rfl

/-! ## The comparison of the row number with the target word -/

/-- The entry (col, b) of the converted comparison "row number = target word" is 1 when the word of col is the
    target word of b and 0 otherwise: the conversion reads the one-bit result unsigned, exactly. -/
theorem indicator_apply (tg : IVec S256 32) (col : Fin 1024) (b : Fin 256) :
    (uitofp (F := Ideal) .f32
      (cmpi .eq
        (broadcastInDim S1024x256 ![0, 1] Facts₀.bcast_S1024x1_S1024x256_0_1
          (broadcastInDim S1024x1 ![0] Facts₀.bcast_S1024_S1024x1_0 (iotaInDim S1024 32 0)))
        (broadcastInDim S1024x256 ![0, 1] Facts₀.bcast_S1x256_S1024x256_0_1
          (broadcastInDim S1x256 ![1] Facts₀.bcast_S256_S1x256_1 tg))) : S1024x256.Idx → EReal) (ix2 col b)
      = if BitVec.ofNat 32 col.val = tg (ix1 b) then (1 : EReal) else 0 := by
  show (((IntOp.cmpi .eq
      (broadcastInDim S1024x256 ![0, 1] Facts₀.bcast_S1024x1_S1024x256_0_1
        (broadcastInDim S1024x1 ![0] Facts₀.bcast_S1024_S1024x1_0 (iotaInDim S1024 32 0)) (ix2 col b))
      (broadcastInDim S1024x256 ![0, 1] Facts₀.bcast_S1x256_S1024x256_0_1
        (broadcastInDim S1x256 ![1] Facts₀.bcast_S256_S1x256_1 tg) (ix2 col b))).toNat : ℝ) : EReal) = _
  rw [rows_apply, cols_apply]
  show (((IntOp.cmpi .eq (BitVec.ofNat 32 col.val) (tg (ix1 b))).toNat : ℝ) : EReal) = _
  by_cases h : BitVec.ofNat 32 col.val = tg (ix1 b)
  · rw [if_pos h, IntOp.cmpi_eq.2 h]
    simp
  · rw [if_neg h, eq_zero_of_ne_one (mt IntOp.cmpi_eq.1 h)]
    simp

/-- The word of a row number below 1024 is a word w with 0 ≤ w < 1000 (read signed) exactly when the row number is
    w's value. -/
theorem word_eq_iff (col : Fin 1024) (w : BitVec 32) (h0 : 0 ≤ w.toInt) (h1 : w.toInt < 1000) :
    BitVec.ofNat 32 col.val = w ↔ (col.val : Int) = w.toInt := by
  have hc := col.isLt
  have hw := w.isLt
  have hn : w.toInt = (w.toNat : Int) := by
    have := BitVec.toInt_eq_toNat_cond w
    split at this <;> omega
  constructor
  · intro h
    rw [hn, ← h, BitVec.toNat_ofNat]
    omega
  · intro h
    apply BitVec.eq_of_toNat_eq
    rw [BitVec.toNat_ofNat]
    omega

/-! ## The array the region finds -/

/-- The indicator array the region finds: entry (col, b) is 1 exactly when col is the target column of query b. -/
theorem onehot_apply (c : Dev nD) (hlab : Cert.Spec.LabelsOk (m ((c : Thread nD τ).loc main_arg4)))
    (col : Fin 1024) (b : Fin 256) :
    ohArr m c (ix2 col b)
      = if col.val = (Cert.Spec.tcol (Cert.Spec.targets (m ((c : Thread nD τ).loc main_arg3)) (m ((c : Thread nD τ).loc main_arg4))) b).val
        then (1 : EReal) else 0 := by
  -- the array is the converted comparison of the row numbers with the target words
  have e : ohArr m c = (uitofp (F := Ideal) .f32
      (cmpi .eq
        (broadcastInDim S1024x256 ![0, 1] Facts₀.bcast_S1024x1_S1024x256_0_1
          (broadcastInDim S1024x1 ![0] Facts₀.bcast_S1024_S1024x1_0 (iotaInDim S1024 32 0)))
        (broadcastInDim S1024x256 ![0, 1] Facts₀.bcast_S1x256_S1024x256_0_1
          (broadcastInDim S1x256 ![1] Facts₀.bcast_S256_S1x256_1
            (Cert.Spec.targets (m ((c : Thread nD τ).loc main_arg3)) (m ((c : Thread nD τ).loc main_arg4)))))) :
        S1024x256.Idx → EReal) := by
    show StableHlo.after hostOps0 (fun b => m (c, b)) (Proc.devRef .tc main_call0_v13) = _
    after_results
    rfl
  rw [e, indicator_apply]
  -- the target word is a cluster number below 1000, so the row number's word equals it exactly when the row is its column
  obtain ⟨h0, h1⟩ := Cert.Spec.targets_ok (idx := m ((c : Thread nD τ).loc main_arg3)) hlab b
  have hv := Cert.Spec.tcol_val (idx := m ((c : Thread nD τ).loc main_arg3)) hlab b
  have hiff := word_eq_iff col _ h0 h1
  by_cases h : BitVec.ofNat 32 col.val
      = Cert.Spec.targets (m ((c : Thread nD τ).loc main_arg3)) (m ((c : Thread nD τ).loc main_arg4)) (ix1 b)
  · rw [if_pos h, if_pos (by have := hiff.1 h; omega)]
  · rw [if_neg h, if_neg (fun hc => h (hiff.2 (by omega)))]

end Cert.KernelIdeal.OneHot

end
-- ==== Proof.KInduct.lean ====
/-
  What the accumulators hold after every grid point, by induction on the point.

  After point n the running sum holds the tiles of n's chunk of 16 from the chunk's first up to n
  (the specification's partial sum), and the target accumulator holds, during the first chunk, the exponential at the
  target column of each query (picked out of the first tile by the indicator array) and zero during the second.  At a
  chunk's last tile the two output blocks hold the same.
-/
import proofs.«409396_j62474594288059_2_alg».proof.Proof.KSteps
import proofs.«409396_j62474594288059_2_alg».proof.Proof.OneHot

noncomputable section

namespace Cert.KernelIdeal.KInduct

open Cert.KernelIdeal Cert.KernelIdeal.Gen Cert.KernelIdeal.KBlocks Cert.KernelIdeal.KSteps
open Idealize.ShloMosaic Idealize.ShloMosaic.TcCoe Idealize.SL.Sem Idealize.ShloMosaic.ValueIdx

variable (m : (ℓ : Loc nD τ sig) → Buf (Elt Ideal) ℓ)

/-- The target column of each query. -/
abbrev tc (c : Dev nD) : Fin 256 → Fin 131072 :=
  Cert.Spec.tcol (Cert.Spec.targets (m ((c : Thread nD τ).loc main_arg3)) (m ((c : Thread nD τ).loc main_arg4)))

/-- A target column is below 1000, so inside the 1024 columns the indicator array covers. -/
theorem tc_lt (c : Dev nD) (hlab : Cert.Spec.LabelsOk (m ((c : Thread nD τ).loc main_arg4))) (b : Fin 256) :
    (tc m c b).val < 1024 := by
  have h1 := Cert.Spec.tcol_val (idx := m ((c : Thread nD τ).loc main_arg3)) hlab b
  have h2 := Cert.Spec.targets_ok (idx := m ((c : Thread nD τ).loc main_arg3)) hlab b
  show (Cert.Spec.tcol (Cert.Spec.targets (m ((c : Thread nD τ).loc main_arg3)) (m ((c : Thread nD τ).loc main_arg4))) b).val < 1024
  omega

/-- In the very first tile, the exponentials weighted by the indicators and summed over the first 1024 rows leave the
    exponential at the target column. -/
theorem tgt_first (c : Dev nD) (hlab : Cert.Spec.LabelsOk (m ((c : Thread nD τ).loc main_arg4))) (t : Fin cfg0.N)
    (ht : t.val = 0) (b : Fin 256) :
    ∑ col : Fin 1024, k0_pay3 (F := Ideal) (blk0 m c t) (blk1 m c t) (ix2 ⟨col.val, by have := col.isLt; omega⟩ b) * blk2 m c t (ix2 col b)
      = Cert.Spec.ex (Xq m c) (Cb m c) (tc m c b) b := by
  rw [Cert.Spec.sum_indicator
    (fun col : Fin 1024 => k0_pay3 (F := Ideal) (blk0 m c t) (blk1 m c t) (ix2 ⟨col.val, by have := col.isLt; omega⟩ b))
    (fun col : Fin 1024 => blk2 m c t (ix2 col b)) ⟨(tc m c b).val, tc_lt m c hlab b⟩
    (fun col => by
      rw [blk2_apply]
      show Cert.KernelIdeal.OneHot.ohArr m c (ix2 col b) = _
      rw [Cert.KernelIdeal.OneHot.onehot_apply m c hlab col b]
      exact if_congr ⟨fun h => Fin.ext h, fun h => congrArg Fin.val h⟩ rfl rfl)]
  show k0_pay3 (F := Ideal) (blk0 m c t) (blk1 m c t) (ix2 ⟨(tc m c b).val, _⟩ b) = _
  rw [KPay.pay3_apply]
  unfold Cert.Spec.ex Cert.Spec.logit
  refine congrArg Ideal.exp (congrArg (· * Cert.Spec.kap) (Finset.sum_congr rfl fun d _ => ?_))
  rw [blk1_apply, blk0_apply]
  congr 3
  apply Fin.ext
  show t.val * 4096 + (tc m c b).val = (tc m c b).val
  rw [ht]; omega

/-- THE INVARIANT, after every point. -/
theorem inv (c : Dev nD) (hlab : Cert.Spec.LabelsOk (m ((c : Thread nD τ).loc main_arg4))) : ∀ (n : ℕ) (h : n < cfg0.N),
    (∀ (u : Fin 1) (b : Fin 256), sumAt m c n h (ix2 u b) = Cert.Spec.partialSum (Xq m c) (Cb m c) n b)
    ∧ (∀ (u : Fin 1) (b : Fin 256), tgtAt m c n h (ix2 u b)
        = if n < 16 then Cert.Spec.ex (Xq m c) (Cb m c) (tc m c b) b else 0) := by
  intro n
  induction n with
  | zero =>
    intro h
    refine ⟨fun u b => ?_, fun u b => ?_⟩
    · exact (KSteps.sumA m c ⟨0, h⟩ rfl rfl (show ¬(0 : ℕ) % 16 = 15 by decide) u b).trans (Cert.Spec.partialSum_first _ _ 0 rfl b).symm
    · exact ((KSteps.tgtA m c ⟨0, h⟩ rfl rfl (show ¬(0 : ℕ) % 16 = 15 by decide) u b).trans (tgt_first m c hlab ⟨0, h⟩ rfl b)).trans
        (if_pos (by decide)).symm
  | succ k ih =>
    intro h
    have hN : cfg0.N = 32 := N32
    have hk : k < cfg0.N := by omega
    obtain ⟨ihS, ihT⟩ := ih hk
    by_cases h0 : (k + 1) % 16 = 0
    · have h1 : ¬(k + 1) % 32 = 0 := by omega
      have h2 : ¬(k + 1) % 16 = 15 := by omega
      refine ⟨fun u b => ?_, fun u b => ?_⟩
      · exact (KSteps.sumD m c ⟨k + 1, h⟩ h0 h1 h2 u b).trans (Cert.Spec.partialSum_first _ _ (k + 1) h0 b).symm
      · exact (KSteps.tgtD m c ⟨k + 1, h⟩ h0 h1 h2 u b).trans (if_neg (by omega)).symm
    · have h1 : ¬(k + 1) % 32 = 0 := by omega
      have hif : ∀ e : EReal, (if k < 16 then e else 0) = (if k + 1 < 16 then e else 0) := fun e =>
        if_congr (by omega) rfl rfl
      by_cases h2 : (k + 1) % 16 = 15
      · refine ⟨fun u b => ?_, fun u b => ?_⟩
        · rw [Cert.Spec.partialSum_succ _ _ k h0 b, ← ihS u b]
          exact KSteps.sumC m c ⟨k + 1, h⟩ h0 h1 h2 u b
        · exact (congrFun (KSteps.tgtC m c ⟨k + 1, h⟩ h0 h1 h2) (ix2 u b)).trans ((ihT u b).trans (hif _))
      · refine ⟨fun u b => ?_, fun u b => ?_⟩
        · rw [Cert.Spec.partialSum_succ _ _ k h0 b, ← ihS u b]
          exact KSteps.sumB m c ⟨k + 1, h⟩ h0 h1 h2 u b
        · exact (congrFun (KSteps.tgtB m c ⟨k + 1, h⟩ h0 h1 h2) (ix2 u b)).trans ((ihT u b).trans (hif _))

/-- At a chunk's last tile the first output block holds the chunk's whole sum, -/
theorem out3_last (c : Dev nD) (hlab : Cert.Spec.LabelsOk (m ((c : Thread nD τ).loc main_arg4))) (t : Fin cfg0.N)
    (h2 : t.val % 16 = 15) (u w : Fin 1) (b : Fin 256) :
    out3At m c t.val t.isLt (ix3 u w b) = Cert.Spec.partialSum (Xq m c) (Cb m c) t.val b := by
  have h0 : ¬t.val % 16 = 0 := by omega
  have h1 : ¬t.val % 32 = 0 := by omega
  exact (KSteps.out3C m c t h0 h1 h2 u w b).trans
    ((KSteps.sumC m c t h0 h1 h2 w b).symm.trans ((inv m c hlab t.val t.isLt).1 w b))

/-- and the second the target accumulator: the target exponentials in the first chunk, zero in the second. -/
theorem out4_last (c : Dev nD) (hlab : Cert.Spec.LabelsOk (m ((c : Thread nD τ).loc main_arg4))) (t : Fin cfg0.N)
    (h2 : t.val % 16 = 15) (u w : Fin 1) (b : Fin 256) :
    out4At m c t.val t.isLt (ix3 u w b) = if t.val < 16 then Cert.Spec.ex (Xq m c) (Cb m c) (tc m c b) b else 0 := by
  have h0 : ¬t.val % 16 = 0 := by omega
  have h1 : ¬t.val % 32 = 0 := by omega
  exact (KSteps.out4C m c t h0 h1 h2 u w b).trans
    ((congrFun (KSteps.tgtC m c t h0 h1 h2) (ix2 w b)).symm.trans ((inv m c hlab t.val t.isLt).2 w b))

end Cert.KernelIdeal.KInduct

end
-- ==== Proof.KFinal.lean ====
/-
  The two [2, 1, 256] result arrays after the kernel's region.

  Chunk c' of the first holds, at query b, the sum of the exponentials over the 16 tiles of chunk c' (the partial sum
  after tile 16 c' + 15); the second holds the target column's exponential in chunk 0 and zero in chunk 1.  Each chunk's
  block is written back once, after the chunk's last tile, and the two blocks cover the arrays.
-/
import proofs.«409396_j62474594288059_2_alg».proof.Proof.KInduct
import Idealize.ShloMosaic.Lib.Pipeline.Value

noncomputable section

namespace Cert.KernelIdeal.KFinal

open Cert.KernelIdeal Cert.KernelIdeal.Gen Cert.KernelIdeal.KBlocks Cert.KernelIdeal.KSteps Cert.KernelIdeal.KInduct
open Idealize.ShloMosaic Idealize.ShloMosaic.TcCoe Idealize.SL.Sem Idealize.ShloMosaic.ValueIdx

variable (m : (ℓ : Loc nD τ sig) → Buf (Elt Ideal) ℓ)

/-- The block indices of the two output windows, decided once over the grid: point t writes chunk t / 16. -/
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- The query an index of a result array belongs to. -/
abbrev bOf (i : S2x1x256.Idx) : Fin 256 := ⟨(i 2).val, (i 2).isLt⟩

/-- The array of chunk sums. -/
def G3 (c : Dev nD) : S2x1x256.Idx → EReal := fun i =>
  Cert.Spec.partialSum (Xq m c) (Cb m c) (16 * (i 0).val + 15) (bOf i)

/-- The array of target exponentials. -/
def G4 (c : Dev nD) : S2x1x256.Idx → EReal := fun i =>
  if (i 0).val = 0 then Cert.Spec.ex (Xq m c) (Cb m c) (tc m c (bOf i)) (bOf i) else 0

/-- What a flushing point writes back to the array of chunk sums is its block of the array named above. -/
theorem flushed3 (c : Dev nD) (hlab : Cert.Spec.LabelsOk (m ((c : Thread nD τ).loc main_arg4))) (t : Fin cfg0.N)
    (hf : (cfg0.win 3).flush t = true) :
    (dats m 0 c).flushed 3 t = ((cfg0.win 3).blk t).view.read (Elt Ideal) (G3 m c) := by
  have h2 : t.val % 16 = 15 := (flush0_3 t).mp hf
  show (cfg0.win 3).cut (grid0.coords t) ((dats m 0 c).after 3 t) = _
  rw [after0_3]
  funext j
  obtain ⟨u, w, b, rfl⟩ : ∃ (u w : Fin 1) (b : Fin 256), j = ix3 u w b :=
    ⟨⟨(j 0).val, (j 0).isLt⟩, ⟨(j 1).val, (j 1).isLt⟩, ⟨(j 2).val, (j 2).isLt⟩, by
      funext a
      match a with
      | ⟨0, _⟩ => rfl
      | ⟨1, _⟩ => rfl
      | ⟨2, _⟩ => rfl⟩
  rw [View.read_apply]
  show out3At m c t.val t.isLt (ix3 u w b) = G3 m c (((cfg0.win 3).blk t).view.emb (ix3 u w b))
  rw [out3_last m c hlab t h2 u w b]
  have e0 : ((((cfg0.win 3).blk t).view.emb (ix3 u w b)) 0).val = t.val / 16 := by
    show win0_3.index t 0 * 1 + 1 * u.val = _
    rw [(idx3 t).1]; omega
  have e2 : ((((cfg0.win 3).blk t).view.emb (ix3 u w b)) 2).val = b.val := by
    show win0_3.index t 2 * 256 + 1 * b.val = _
    rw [(idx3 t).2.2]; omega
  have hb : bOf (((cfg0.win 3).blk t).view.emb (ix3 u w b)) = b := Fin.ext e2
  have hN := N32
  have ht := t.isLt
  unfold G3
  rw [hb, e0]
  congr 1
  omega

/-- An index of the array of chunk sums is in point t's block iff each coordinate is in the block's range on its axis. -/
theorem mem_blk3 (t : Fin cfg0.N) (i : S2x1x256.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_call0_v14_0).slice (win0_3.rect t)).set ↔ _
  rw [View.set_slice_whole, Rect.mem_set_unit]
  exact Iff.rfl

/-- Every index of the array of chunk sums is in the block of the last tile of its chunk, which is written back. -/
theorem cover3 (i : S2x1x256.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 256 := (i 2).isLt
  have hN := N32
  have hlt : 16 * (i 0).val + 15 < cfg0.N := by omega
  obtain ⟨e0, e1, e2⟩ := idx3 ⟨16 * (i 0).val + 15, hlt⟩
  dsimp only at e0
  refine ⟨⟨16 * (i 0).val + 15, hlt⟩, (flush0_3 _).mpr (by show (16 * (i 0).val + 15) % 16 = 15; omega), ?_⟩
  rw [mem_blk3]
  intro a
  match a with
  | ⟨0, _⟩ =>
    show win0_3.index ⟨16 * (i 0).val + 15, hlt⟩ 0 * 1 ≤ (i 0).val ∧ (i 0).val < win0_3.index ⟨16 * (i 0).val + 15, hlt⟩ 0 * 1 + 1
    rw [e0]; omega
  | ⟨1, _⟩ =>
    show win0_3.index ⟨16 * (i 0).val + 15, hlt⟩ 1 * 1 ≤ (i 1).val ∧ (i 1).val < win0_3.index ⟨16 * (i 0).val + 15, hlt⟩ 1 * 1 + 1
    rw [e1]; omega
  | ⟨2, _⟩ =>
    show win0_3.index ⟨16 * (i 0).val + 15, hlt⟩ 2 * 256 ≤ (i 2).val ∧ (i 2).val < win0_3.index ⟨16 * (i 0).val + 15, hlt⟩ 2 * 256 + 256
    rw [e2]; omega

/-- So the array of chunk sums ends holding the array named above. -/
theorem final3 (c : Dev nD) (hlab : Cert.Spec.LabelsOk (m ((c : Thread nD τ).loc main_arg4))) :
    (dats m 0 c).arrAt 3 cfg0.N = G3 m c :=
  (dats m 0 c).arrAt_eq_of_cover 3 (G3 m c) (flushed3 m c hlab) cover3

/-- What a flushing point writes back to the array of target exponentials is its block of the array named above. -/
theorem flushed4 (c : Dev nD) (hlab : Cert.Spec.LabelsOk (m ((c : Thread nD τ).loc main_arg4))) (t : Fin cfg0.N)
    (hf : (cfg0.win 4).flush t = true) :
    (dats m 0 c).flushed 4 t = ((cfg0.win 4).blk t).view.read (Elt Ideal) (G4 m c) := by
  have h2 : t.val % 16 = 15 := (flush0_4 t).mp hf
  show (cfg0.win 4).cut (grid0.coords t) ((dats m 0 c).after 4 t) = _
  rw [after0_4]
  funext j
  obtain ⟨u, w, b, rfl⟩ : ∃ (u w : Fin 1) (b : Fin 256), j = ix3 u w b :=
    ⟨⟨(j 0).val, (j 0).isLt⟩, ⟨(j 1).val, (j 1).isLt⟩, ⟨(j 2).val, (j 2).isLt⟩, by
      funext a
      match a with
      | ⟨0, _⟩ => rfl
      | ⟨1, _⟩ => rfl
      | ⟨2, _⟩ => rfl⟩
  rw [View.read_apply]
  show out4At m c t.val t.isLt (ix3 u w b) = G4 m c (((cfg0.win 4).blk t).view.emb (ix3 u w b))
  rw [out4_last m c hlab t h2 u w b]
  have e0 : ((((cfg0.win 4).blk t).view.emb (ix3 u w b)) 0).val = t.val / 16 := by
    show win0_4.index t 0 * 1 + 1 * u.val = _
    rw [(idx4 t).1]; omega
  have e2 : ((((cfg0.win 4).blk t).view.emb (ix3 u w b)) 2).val = b.val := by
    show win0_4.index t 2 * 256 + 1 * b.val = _
    rw [(idx4 t).2.2]; omega
  have hb : bOf (((cfg0.win 4).blk t).view.emb (ix3 u w b)) = b := Fin.ext e2
  have hN := N32
  have ht := t.isLt
  unfold G4
  rw [hb, e0]
  exact if_congr (by omega) rfl rfl

/-- An index of the array of target exponentials is in point t's block iff each coordinate is in the block's range on its axis. -/
theorem mem_blk4 (t : Fin cfg0.N) (i : S2x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_call0_v14_1).slice (win0_4.rect t)).set ↔ _
  rw [View.set_slice_whole, Rect.mem_set_unit]
  exact Iff.rfl

/-- Every index of the array of target exponentials is in the block of the last tile of its chunk, which is written back. -/
theorem cover4 (i : S2x1x256.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 256 := (i 2).isLt
  have hN := N32
  have hlt : 16 * (i 0).val + 15 < cfg0.N := by omega
  obtain ⟨e0, e1, e2⟩ := idx4 ⟨16 * (i 0).val + 15, hlt⟩
  dsimp only at e0
  refine ⟨⟨16 * (i 0).val + 15, hlt⟩, (flush0_4 _).mpr (by show (16 * (i 0).val + 15) % 16 = 15; omega), ?_⟩
  rw [mem_blk4]
  intro a
  match a with
  | ⟨0, _⟩ =>
    show win0_4.index ⟨16 * (i 0).val + 15, hlt⟩ 0 * 1 ≤ (i 0).val ∧ (i 0).val < win0_4.index ⟨16 * (i 0).val + 15, hlt⟩ 0 * 1 + 1
    rw [e0]; omega
  | ⟨1, _⟩ =>
    show win0_4.index ⟨16 * (i 0).val + 15, hlt⟩ 1 * 1 ≤ (i 1).val ∧ (i 1).val < win0_4.index ⟨16 * (i 0).val + 15, hlt⟩ 1 * 1 + 1
    rw [e1]; omega
  | ⟨2, _⟩ =>
    show win0_4.index ⟨16 * (i 0).val + 15, hlt⟩ 2 * 256 ≤ (i 2).val ∧ (i 2).val < win0_4.index ⟨16 * (i 0).val + 15, hlt⟩ 2 * 256 + 256
    rw [e2]; omega

/-- So the array of target exponentials ends holding the array named above. -/
theorem final4 (c : Dev nD) (hlab : Cert.Spec.LabelsOk (m ((c : Thread nD τ).loc main_arg4))) :
    (dats m 0 c).arrAt 4 cfg0.N = G4 m c :=
  (dats m 0 c).arrAt_eq_of_cover 4 (G4 m c) (flushed4 m c hlab) cover4

end Cert.KernelIdeal.KFinal

end
-- ==== Proof.KTail.lean ====
/-
  The host operations after the kernel's region: from the two [2, 1, 256] result arrays S (the chunks' sums of
  exponentials) and T (the chunks' target exponentials) the program returns
      −( ∑ b, log( T(0,0,b) / ((S(0,0,b) + S(1,0,b)) + ε) + ε ) ) / 256.
-/
import proofs.«409396_j62474594288059_2_alg».proof.Proof.Gen.KernelIdeal.Frame
import proofs.«409396_j62474594288059_2_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.KTail

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The host's combination of the two result arrays. -/
def combine (S T : S2x1x256.Idx → EReal) : EReal :=
  -(Ideal.div (∑ b : Fin 256, Ideal.log (Ideal.div (T (ix3 (0 : Fin 2) (0 : Fin 1) b))
      ((S (ix3 (0 : Fin 2) (0 : Fin 1) b) + S (ix3 (1 : Fin 2) (0 : Fin 1) b)) + Cert.Spec.eps) + Cert.Spec.eps))
    (Ideal.ofBits .f32 0x43800000#32))

/-- The two result arrays after the region's last write-back, at their literal type. -/
abbrev arr3 (c : Dev nD) : S2x1x256.Idx → EReal := (dats m 0 c).arrAt 3 cfg0.N
abbrev arr4 (c : Dev nD) : S2x1x256.Idx → EReal := (dats m 0 c).arrAt 4 cfg0.N

/-! ## The operations after the region as one function of the two result arrays -/

/-- The host operations after the region, composed: the two rows of S added, the constant added, the first row of T
    divided by that, the constant added, the logarithm, the sum over the 256 entries, the division by 256, the sign. -/
def tailFn (S T : S2x1x256.Idx → EReal) : S_.Idx → EReal :=
  Host.negf (F := Ideal) (φ := .f32) (Host.divf (F := Ideal) (φ := .f32)
    (Host.reduceAdd (F := Ideal) (φ := .f32)
      (Host.log (F := Ideal) (φ := .f32) (addf (F := Ideal) (φ := .f32)
        (Host.divf (F := Ideal) (φ := .f32)
          (shapeCast S256 (extractStridedSlice S1x1x256 ![0, 0, 0] T Facts₀.slices_S2x1x256_S1x1x256_0_0_0)
            Facts₀.shapeCasts_S1x1x256_S256)
          (addf (F := Ideal) (φ := .f32)
            (addf (F := Ideal) (φ := .f32)
              (shapeCast S256 (extractStridedSlice S1x1x256 ![0, 0, 0] S Facts₀.slices_S2x1x256_S1x1x256_0_0_0)
                Facts₀.shapeCasts_S1x1x256_S256)
              (shapeCast S256 (extractStridedSlice S1x1x256 ![1, 0, 0] S Facts₀.slices_S2x1x256_S1x1x256_1_0_0)
                Facts₀.shapeCasts_S1x1x256_S256))
            (broadcastInDim S256 ![] Facts₀.bcast_S_S256 (constant (F := Ideal) S_ .f32 0x358637BD#32))))
        (broadcastInDim S256 ![] Facts₀.bcast_S_S256 (constant (F := Ideal) S_ .f32 0x358637BD#32))))
      (constant (F := Ideal) S_ .f32 0x00000000#32) Facts₀.reducesTo_S256_S_d0 Facts₀.h_S_)
    (constant (F := Ideal) S_ .f32 0x43800000#32))

/-- The first row of a [2, 1, 256] array, cut out and flattened, reads at b the entry (0, 0, b). -/
theorem row0_apply {α : Type} (X : S2x1x256.Idx → α) (b : Fin 256) :
    shapeCast S256 (extractStridedSlice S1x1x256 ![0, 0, 0] X Facts₀.slices_S2x1x256_S1x1x256_0_0_0)
        Facts₀.shapeCasts_S1x1x256_S256 (ix1 b)
      = X (ix3 (0 : Fin 2) (0 : Fin 1) b) := by
  refine (shapeCast_apply _ _ (ix1 b) (ix3 (0 : Fin 1) (0 : Fin 1) b) ?_).trans
    (extractStridedSlice_apply _ _ _ _ (ix3 (0 : Fin 2) (0 : Fin 1) b) (fun a => ?_))
  · rw [Shape.rowMajor_val_three, Shape.rowMajor_val_one]
    show (0 * 1 + 0) * 256 + b.val = b.val
    omega
  · match a with
    | ⟨0, _⟩ => rfl
    | ⟨1, _⟩ => rfl
    | ⟨2, _⟩ => exact (Nat.zero_add _).symm

/-- The second row, cut out and flattened, reads at b the entry (1, 0, b). -/
theorem row1_apply {α : Type} (X : S2x1x256.Idx → α) (b : Fin 256) :
    shapeCast S256 (extractStridedSlice S1x1x256 ![1, 0, 0] X Facts₀.slices_S2x1x256_S1x1x256_1_0_0)
        Facts₀.shapeCasts_S1x1x256_S256 (ix1 b)
      = X (ix3 (1 : Fin 2) (0 : Fin 1) b) := by
  refine (shapeCast_apply _ _ (ix1 b) (ix3 (0 : Fin 1) (0 : Fin 1) b) ?_).trans
    (extractStridedSlice_apply _ _ _ _ (ix3 (1 : Fin 2) (0 : Fin 1) b) (fun a => ?_))
  · rw [Shape.rowMajor_val_three, Shape.rowMajor_val_one]
    show (0 * 1 + 0) * 256 + b.val = b.val
    omega
  · match a with
    | ⟨0, _⟩ => rfl
    | ⟨1, _⟩ => rfl
    | ⟨2, _⟩ => exact (Nat.zero_add _).symm

/-- A sum over the indices of a vector of 256 entries is the sum over the entries' numbers. -/
theorem sum_idx1 (f : S256.Idx → EReal) : ∑ i : S256.Idx, f i = ∑ b : Fin 256, f (ix1 b) :=
  (Equiv.sum_comp (⟨fun b => ix1 b, fun i => i 0, fun _ => rfl, fun i => (eq_ix1 i).symm⟩ : Fin 256 ≃ S256.Idx) f).symm

/-- The composed operations compute the combination: the sum into the one-entry result is the sum over the 256 entries,
    from the initial value 0, and every other operation acts entry by entry. -/
theorem tailFn_apply (S T : S2x1x256.Idx → EReal) (j : S_.Idx) : tailFn S T j = combine S T := by
  unfold tailFn combine
  show -(Ideal.div (Ideal.hostReduceAdd Facts₀.reducesTo_S256_S_d0 _ (Ideal.ofBits .f32 0x00000000#32) j)
      (Ideal.ofBits .f32 0x43800000#32)) = _
  rw [Ideal.hostReduceAdd_total _ (fun a => a.elim0), Ideal.ofBits_zero_f32, zero_add, sum_idx1]
  refine congrArg (fun z => -(Ideal.div z (Ideal.ofBits .f32 0x43800000#32))) ?_
  refine Finset.sum_congr rfl fun b _ => ?_
  show Ideal.log (Ideal.div
      (shapeCast S256 (extractStridedSlice S1x1x256 ![0, 0, 0] T Facts₀.slices_S2x1x256_S1x1x256_0_0_0)
        Facts₀.shapeCasts_S1x1x256_S256 (ix1 b))
      ((shapeCast S256 (extractStridedSlice S1x1x256 ![0, 0, 0] S Facts₀.slices_S2x1x256_S1x1x256_0_0_0)
          Facts₀.shapeCasts_S1x1x256_S256 (ix1 b)
        + shapeCast S256 (extractStridedSlice S1x1x256 ![1, 0, 0] S Facts₀.slices_S2x1x256_S1x1x256_1_0_0)
          Facts₀.shapeCasts_S1x1x256_S256 (ix1 b))
        + Ideal.ofBits .f32 0x358637BD#32)
      + Ideal.ofBits .f32 0x358637BD#32) = _
  rw [row0_apply, row0_apply, row1_apply]
  rfl

/-- What the operations after the region leave in the program's result: the combination of the two result arrays. -/
theorem tail_eq (c : Dev nD) :
    Pipeline.afterTail₀ cfgs (dats m) 0 (V0 m) [hostOps1] c main_v0 = fun _ => combine (arr3 m c) (arr4 m c) := by
  -- the two result arrays are what the tail reads where the region left them
  have h3 : Pipeline.withArrays spec0 c (V0 m c) (fun w => (dats m 0 c).arrAt w cfg0.N)
      (Proc.devRef .tc (Pipeline.arrRef spec0 3)) = arr3 m c :=
    Pipeline.withArrays_arr spec0 launch0.win.arr_inj c _ _ 3
  have h4 : Pipeline.withArrays spec0 c (V0 m c) (fun w => (dats m 0 c).arrAt w cfg0.N)
      (Proc.devRef .tc (Pipeline.arrRef spec0 4)) = arr4 m c :=
    Pipeline.withArrays_arr spec0 launch0.win.arr_inj c _ _ 4
  -- the tail's result is the composed operations applied to them
  have e : Pipeline.afterTail₀ cfgs (dats m) 0 (V0 m) [hostOps1] c main_v0
      = tailFn
          (Pipeline.withArrays spec0 c (V0 m c) (fun w => (dats m 0 c).arrAt w cfg0.N)
            (Proc.devRef .tc (Pipeline.arrRef spec0 3)))
          (Pipeline.withArrays spec0 c (V0 m c) (fun w => (dats m 0 c).arrAt w cfg0.N)
            (Proc.devRef .tc (Pipeline.arrRef spec0 4))) := by
    unfold Pipeline.afterTail₀
    show StableHlo.after hostOps1 _ (Proc.devRef .tc main_v0) = _
    after_results
    rfl
  rw [e, h3, h4]
  funext j
  exact tailFn_apply _ _ j

end Cert.KernelIdeal.KTail

end
-- ==== Proof.KRun.lean ====
/-
  The kernel's program, run: its result is the specification's loss.

  The host's combination of the two result arrays takes the target exponential from chunk 0 of the second array and
  adds the two chunks of the first; the two chunks' sums add up to the sum over the whole bank, so the combination is
  −( ∑ b, log( e (tc b) b / (S b + ε) + ε ) ) / 256.
-/
import proofs.«409396_j62474594288059_2_alg».proof.Proof.KFinal
import proofs.«409396_j62474594288059_2_alg».proof.Proof.KTail

noncomputable section

namespace Cert.KernelIdeal.KRun

open Cert.KernelIdeal Cert.KernelIdeal.Gen Cert.KernelIdeal.KBlocks Cert.KernelIdeal.KInduct
open Idealize.ShloMosaic Idealize.ShloMosaic.TcCoe Idealize.SL.Sem Idealize.ShloMosaic.ValueIdx

variable (m : (ℓ : Loc nD τ sig) → Buf (Elt Ideal) ℓ) (ρ : Dev nD → PrngReg)

/-- The host's combination of the two result arrays is the loss. -/
theorem combine_eq (c : Dev nD) (hlab : Cert.Spec.LabelsOk (m ((c : Thread nD τ).loc main_arg4))) :
    KTail.combine (KTail.arr3 m c) (KTail.arr4 m c) = Cert.Spec.loss (Xq m c) (Cb m c) (tc m c) := by
  have e3 : KTail.arr3 m c = KFinal.G3 m c := KFinal.final3 m c hlab
  have e4 : KTail.arr4 m c = KFinal.G4 m c := KFinal.final4 m c hlab
  rw [e3, e4]
  unfold KTail.combine Cert.Spec.loss Cert.Spec.logp
  refine congrArg Neg.neg (congrArg (Ideal.div · (Ideal.ofBits .f32 0x43800000#32)) (Finset.sum_congr rfl fun b _ => ?_))
  have t4 : KFinal.G4 m c (ix3 (0 : Fin 2) (0 : Fin 1) b) = Cert.Spec.ex (Xq m c) (Cb m c) (tc m c b) b := by
    unfold KFinal.G4
    exact if_pos rfl
  have s3 : KFinal.G3 m c (ix3 (0 : Fin 2) (0 : Fin 1) b) + KFinal.G3 m c (ix3 (1 : Fin 2) (0 : Fin 1) b)
      = Cert.Spec.rowsum (Xq m c) (Cb m c) b := by
    unfold KFinal.G3
    exact Cert.Spec.partialSum_total (Xq m c) (Cb m c) b
  rw [t4, s3]

/-- Every weakly fair execution of the kernel's program terminates with its result at the loss and its arguments
    unchanged, when every label is a cluster number below 1000. -/
theorem run (hlab : ∀ c : Dev nD, Cert.Spec.LabelsOk (m ((c : Thread nD τ).loc main_arg4))) :
    θ_run defs (onTc (τ := τ) (main (F := Ideal))) ⟨m, fun _ => 0, ρ⟩ (fun r => ∀ c : Dev nD,
      r.2.mem ((c.tc : Thread nD τ).loc main_v0) = (fun _ => Cert.Spec.loss (Xq m c) (Cb m c) (tc m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans
        ((KTail.tail_eq m c).trans (funext fun _ => combine_eq m c (hlab c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.lean ====
/-
  The proof of `Cert.Claim`: the kernel and the reference compute one loss.

  For queries X [256, 256], a bank C [131072, 256], index words and labels, both programs return
      −( ∑ b, log( e (tc b) b / (∑ n, e n b + ε) + ε ) ) / 256,    e n b = exp((∑ d, C n d · X b d) · κ),
  with tc b the label at query b's index word.  The reference forms all of e, divides, takes logarithms and gathers the
  target column.  The kernel walks the bank in 32 tiles of 4096 rows, two chunks of 16 tiles, keeps a running column sum
  per chunk and, in the very first tile, picks the target column's exponential out of the first 1024 rows by a 0/1
  indicator array built from the labels; the host adds the two chunks' sums and finishes.  The two agree because the
  tiles' sums regroup into the sum over the bank (additions of extended reals commute and associate), because the
  indicator selects exactly the target column when every label is a cluster number below 1000 (the precondition), and
  because the kernel's factor κ = 268435456/13421773 is the exact reciprocal of the binary value of 0.05 by which the
  reference divides.
-/
import proofs.«409396_j62474594288059_2_alg».proof.Defs
import proofs.«409396_j62474594288059_2_alg».proof.Proof.Gen.Kernel
import proofs.«409396_j62474594288059_2_alg».proof.Proof.Gen.Kernel.Frame
import proofs.«409396_j62474594288059_2_alg».proof.Proof.Gen.KernelIdeal
import proofs.«409396_j62474594288059_2_alg».proof.Proof.Gen.KernelIdeal.Frame
import proofs.«409396_j62474594288059_2_alg».proof.Proof.Gen.ReferenceIdeal
import proofs.«409396_j62474594288059_2_alg».proof.Proof.Gen.Pre_finite_inputs
import proofs.«409396_j62474594288059_2_alg».proof.Proof.Gen.ReferenceIdeal.Run
import proofs.«409396_j62474594288059_2_alg».proof.Proof.Gen.ReferenceIdeal.Read
import proofs.«409396_j62474594288059_2_alg».proof.Proof.PreLabels
import proofs.«409396_j62474594288059_2_alg».proof.Proof.RefValue
import proofs.«409396_j62474594288059_2_alg».proof.Proof.KRun
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the temperature constant 20.0 denotes 268435456/13421773. -/
theorem preserves : Cert.preserves_Kernel_KernelIdeal :=
  IdealRules.named_const.statement Cert.KernelIdeal.κ "inv_temp" .f32 0x41A00000#32 ((268435456 / 13421773 : ℝ) : EReal) rfl

/-- Both programs end with the loss of the specification at the same arguments. -/
theorem algebraic : Cert.algebraic_KernelIdeal_ReferenceIdeal := by
  intro m ρ m' ρ' hpre hagree
  have hlab : ∀ c : Dev Cert.KernelIdeal.nD,
      Cert.Spec.LabelsOk (m ((c.tc : Thread Cert.KernelIdeal.nD Cert.KernelIdeal.τ).loc Cert.KernelIdeal.main_arg4)) :=
    fun c => Cert.PreLabels.labels_ok _ _ _ _ _ (hpre c)
  refine ⟨_, Cert.KernelIdeal.KRun.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.2.1, (hagree c).2.2.2.2]
  exact Cert.ReferenceIdeal.RefValue.result_eq _ _ _ _ (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
